-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S2x800000 : Shape := ⟨2, ![2, 800000]⟩
abbrev S128x138 : Shape := ⟨2, ![128, 138]⟩
abbrev S128 : Shape := ⟨1, ![128]⟩
abbrev S96x128 : Shape := ⟨2, ![96, 128]⟩
abbrev S96 : Shape := ⟨1, ![96]⟩
abbrev S96x96 : Shape := ⟨2, ![96, 96]⟩
abbrev S256x96 : Shape := ⟨2, ![256, 96]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x138 : S_.BroadcastsInDim S128x138 (![] : Fin 0 → Fin S128x138.rank)
  reducesTo_S128x138_S_d0_1 : S128x138.ReducesTo [0, 1] S_
  bcast_S_S128 : S_.BroadcastsInDim S128 (![] : Fin 0 → Fin S128.rank)
  reducesTo_S128_S_d0 : S128.ReducesTo [0] S_
  bcast_S_S96x128 : S_.BroadcastsInDim S96x128 (![] : Fin 0 → Fin S96x128.rank)
  reducesTo_S96x128_S_d0_1 : S96x128.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S256x96 : S_.BroadcastsInDim S256x96 (![] : Fin 0 → Fin S256x96.rank)
  reducesTo_S256x96_S_d0_1 : S256x96.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256x96 .f32) (main_arg10 : FVec F S256 .f32) (main_v33 : IVec S_ 1) : IVec S_ 1 :=
  let main_v34 : FVec F S256x96 .f32 := Host.absf main_arg9
  let main_cst_12 : FVec F S_ .f32 := constant S_ .f32 0x7F800000#32
  let main_v35 : FVec F S256x96 .f32 := broadcastInDim S256x96 ![] bcast_S_S256x96 main_cst_12
  let main_v36 : IVec S256x96 1 := cmpf .olt main_v34 main_v35
  let main_c_13 : IVec S_ 1 := constantI S_ 1 1#1
  let main_v37 : IVec S_ 1 := (fun x v => Host.reduce IntOp.andi x v reducesTo_S256x96_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S96 .f32) (main_arg7 : FVec F S96x96 .f32) (main_arg8 : FVec F S96 .f32) (main_arg9 : FVec F S256x96 .f32) (main_arg10 : FVec F S256 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S50000 32) (main_arg2 : IVec S2x800000 32) (main_arg3 : FVec F S128x138 .f32) (main_arg4 : FVec F S128 .f32) (main_arg5 : FVec F S96x128 .f32) (main_arg6 : FVec F S96 .f32) (main_arg7 : FVec F S96x96 .f32) (main_arg8 : FVec F S96 .f32) (main_arg9 : FVec F S256x96 .f32) (main_arg10 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x138 .f32 := Host.absf main_arg3
  let main_cst_0 : FVec F S_ .f32 := constant S_ .f32 0x7F800000#32
  let main_v5 : FVec F S128x138 .f32 := broadcastInDim S128x138 ![] bcast_S_S128x138 main_cst_0
  let main_v6 : IVec S128x138 1 := cmpf .olt main_v4 main_v5
  let main_c_1 : IVec S_ 1 := constantI S_ 1 1#1
  let main_v7 : IVec S_ 1 := (fun x v => Host.reduce IntOp.andi x v reducesTo_S128x138_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S50000 : Shape := ⟨1, ![50000]⟩
abbrev S2x800000 : Shape := ⟨2, ![2, 800000]⟩
abbrev S128x138 : Shape := ⟨2, ![128, 138]⟩
abbrev S128 : Shape := ⟨1, ![128]⟩
abbrev S96x128 : Shape := ⟨2, ![96, 128]⟩
abbrev S96 : Shape := ⟨1, ![96]⟩
abbrev S96x96 : Shape := ⟨2, ![96, 96]⟩
abbrev S256x96 : Shape := ⟨2, ![256, 96]⟩
abbrev S256 : Shape := ⟨1, ![256]⟩
abbrev S128x128 : Shape := ⟨2, ![128, 128]⟩
abbrev S128x10 : Shape := ⟨2, ![128, 10]⟩
abbrev S10x128 : Shape := ⟨2, ![10, 128]⟩
abbrev S1x128 : Shape := ⟨2, ![1, 128]⟩
abbrev S128x96 : Shape := ⟨2, ![128, 96]⟩
abbrev S1x96 : Shape := ⟨2, ![1, 96]⟩
abbrev S50000x1 : Shape := ⟨2, ![50000, 1]⟩
abbrev S50000x96 : Shape := ⟨2, ![50000, 96]⟩
abbrev S5000x128 : Shape := ⟨2, ![5000, 128]⟩
abbrev S5000x1 : Shape := ⟨2, ![5000, 1]⟩
abbrev S5000x96 : Shape := ⟨2, ![5000, 96]⟩
abbrev S5000x10 : Shape := ⟨2, ![5000, 10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S96x256 : Shape := ⟨2, ![96, 256]⟩
abbrev S1x256 : Shape := ⟨2, ![1, 256]⟩
abbrev S50000x256 : Shape := ⟨2, ![50000, 256]⟩
abbrev S5000x256 : Shape := ⟨2, ![5000, 256]⟩

abbrev nBuf : Space → Nat
  | .hbm => 86
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S2x800000, .i32⟩
  | .hbm, ⟨3, _⟩ => ⟨S128x138, .f32⟩
  | .hbm, ⟨4, _⟩ => ⟨S128, .f32⟩
  | .hbm, ⟨5, _⟩ => ⟨S96x128, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S256x96, .f32⟩
  | .hbm, ⟨10, _⟩ => ⟨S256, .f32⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x10, .f32⟩
  | .hbm, ⟨15, _⟩ => ⟨S10x128, .f32⟩
  | .hbm, ⟨16, _⟩ => ⟨S10x128, .bf16⟩
  | .hbm, ⟨17, _⟩ => ⟨S1x128, .f32⟩
  | .hbm, ⟨18, _⟩ => ⟨S128x96, .f32⟩
  | .hbm, ⟨19, _⟩ => ⟨S128x96, .bf16⟩
  | .hbm, ⟨20, _⟩ => ⟨S1x96, .f32⟩
  | .hbm, ⟨21, _⟩ => ⟨S96x96, .f32⟩
  | .hbm, ⟨22, _⟩ => ⟨S96x96, .bf16⟩
  | .hbm, ⟨23, _⟩ => ⟨S50000x1, .i32⟩
  | .hbm, ⟨24, _⟩ => ⟨S50000x96, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S50000, .i32⟩
  | .hbm, ⟨30, _⟩ => ⟨S850000, .i32⟩
  | .hbm, ⟨31, _⟩ => ⟨S850000, .i32⟩
  | .hbm, ⟨32, _⟩ => ⟨S_, .f32⟩
  | .hbm, ⟨33, _⟩ => ⟨S850000, .f32⟩
  | .hbm, ⟨34, _⟩ => ⟨S_, .f32⟩
  | .hbm, ⟨35, _⟩ => ⟨S50000, .f32⟩
  | .hbm, ⟨36, _⟩ => ⟨S850000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .i1⟩
  | .hbm, ⟨41, _⟩ => ⟨S50000, .f32⟩
  | .hbm, ⟨42, _⟩ => ⟨S_, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000, .f32⟩
  | .hbm, ⟨64, _⟩ => ⟨S850000, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x96, .f32⟩
  | .hbm, ⟨74, _⟩ => ⟨S850000x1, .f32⟩
  | .hbm, ⟨75, _⟩ => ⟨S850000x96, .f32⟩
  | .hbm, ⟨76, _⟩ => ⟨S850000x96, .f32⟩
  | .hbm, ⟨77, _⟩ => ⟨S_, .f32⟩
  | .hbm, ⟨78, _⟩ => ⟨S50000x96, .f32⟩
  | .hbm, ⟨79, _⟩ => ⟨S850000x1, .i32⟩
  | .hbm, ⟨80, _⟩ => ⟨S50000x96, .f32⟩
  | .hbm, ⟨81, _⟩ => ⟨S1x96, .f32⟩
  | .hbm, ⟨82, _⟩ => ⟨S96x256, .f32⟩
  | .hbm, ⟨83, _⟩ => ⟨S96x256, .bf16⟩
  | .hbm, ⟨84, _⟩ => ⟨S1x256, .f32⟩
  | .hbm, ⟨85, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x1, .i32⟩
  | .local _ .vmem, ⟨3, _⟩ => ⟨S5000x1, .i32⟩
  | .local _ .vmem, ⟨4, _⟩ => ⟨S128x128, .bf16⟩
  | .local _ .vmem, ⟨5, _⟩ => ⟨S10x128, .bf16⟩
  | .local _ .vmem, ⟨6, _⟩ => ⟨S1x128, .f32⟩
  | .local _ .vmem, ⟨7, _⟩ => ⟨S128x96, .bf16⟩
  | .local _ .vmem, ⟨8, _⟩ => ⟨S1x96, .f32⟩
  | .local _ .vmem, ⟨9, _⟩ => ⟨S96x96, .bf16⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S1x96, .f32⟩
  | .local _ .vmem, ⟨15, _⟩ => ⟨S96x256, .bf16⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S128x138_S128x128_0_0 : S128x138.Slices ![0, 0] S128x128
  transposes_S128x128_S128x128_1_0 : S128x128.Transposes [1, 0] S128x128
  bitsLt_bf16_f32 : FTy.bits .bf16 < FTy.bits .f32
  slices_S128x138_S128x10_0_128 : S128x138.Slices ![0, 128] S128x10
  transposes_S128x10_S10x128_1_0 : S128x10.Transposes [1, 0] S10x128
  shapeCasts_S128_S1x128 : S128.ShapeCasts S1x128
  transposes_S96x128_S128x96_1_0 : S96x128.Transposes [1, 0] S128x96
  shapeCasts_S96_S1x96 : S96.ShapeCasts S1x96
  transposes_S96x96_S96x96_1_0 : S96x96.Transposes [1, 0] S96x96
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x10_d1_w32 : S5000x10.Iotas .tc 32 [1]
  broadcasts_S5000x1_S5000x10 : S5000x1.Broadcasts S5000x10
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S5000x96_S5000x96_0_0 : ∀ a, (![0, 0] : Fin 2 → Nat) a + S5000x96.size a ≤ S5000x96.size a
  h_S5000x96 : 0 < S5000x96.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  transposes_S256x96_S96x256_1_0 : S256x96.Transposes [1, 0] S96x256
  shapeCasts_S256_S1x256 : S256.ShapeCasts S1x256
  shapeCasts_S5000x96_S5000x96 : S5000x96.ShapeCasts S5000x96
  inb_S96x256_S96x256_0_0 : ∀ a, (![0, 0] : Fin 2 → Nat) a + S96x256.size a ≤ S96x256.size a
  h_S96x256 : 0 < S96x256.numel
  shapeCasts_S96x256_S96x256 : S96x256.ShapeCasts S96x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  dot_S5000x128_S128x128_S5000x128_1_0_0_1_n_n_wf : DotDims.WF S5000x128 S128x128 S5000x128 [1] [0] [0] [1] [] []
  dot_S5000x10_S10x128_S5000x128_1_0_0_1_n_n_wf : DotDims.WF S5000x10 S10x128 S5000x128 [1] [0] [0] [1] [] []
  dot_S5000x128_S128x96_S5000x96_1_0_0_1_n_n_wf : DotDims.WF S5000x128 S128x96 S5000x96 [1] [0] [0] [1] [] []
  dot_S5000x96_S96x96_S5000x96_1_0_0_1_n_n_wf : DotDims.WF S5000x96 S96x96 S5000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x256_S5000x256_1_0_0_1_n_n_wf : DotDims.WF S5000x96 S96x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .i32 = 32 ∨ (Rect.block (s := S50000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x128.size a ≤ S10x128.size a
  hwx0_3 : ∀ i : grid0.Coords, EltTy.bits .bf16 = 32 ∨ (Rect.block (s := S10x128) S10x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x96.size a ≤ S128x96.size a
  hwx0_5 : ∀ i : grid0.Coords, EltTy.bits .bf16 = 32 ∨ (Rect.block (s := S128x96) S128x96.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x96.size a ≤ S96x96.size a
  hwx0_7 : ∀ i : grid0.Coords, EltTy.bits .bf16 = 32 ∨ (Rect.block (s := S96x96) S96x96.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x96.size a ≤ S50000x96.size a
  hwx0_8 : ∀ i : grid0.Coords, EltTy.bits .f32 = 32 ∨ (Rect.block (s := S50000x96) S5000x96.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x256.size a ≤ S96x256.size a
  hwx1_2 : ∀ i : grid1.Coords, EltTy.bits .bf16 = 32 ∨ (Rect.block (s := S96x256) S96x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x10_S10x128_S5000x128_1_0_0_1_n_n : DotDims S5000x10 S10x128 S5000x128 where
  lhsContracting := [1]
  rhsContracting := [0]
  lhsNonContracting := [0]
  rhsNonContracting := [1]
  lhsBatch := []
  rhsBatch := []
  wf := dot_S5000x10_S10x128_S5000x128_1_0_0_1_n_n_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x256_S5000x256_1_0_0_1_n_n : DotDims S5000x96 S96x256 S5000x256 where
  lhsContracting := [1]
  rhsContracting := [0]
  lhsNonContracting := [0]
  rhsNonContracting := [1]
  lhsBatch := []
  rhsBatch := []
  wf := dot_S5000x96_S96x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S96x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S5000x96.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v56) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S96x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000 : Shape := ⟨1, ![50000]⟩
abbrev S2x800000 : Shape := ⟨2, ![2, 800000]⟩
abbrev S128x138 : Shape := ⟨2, ![128, 138]⟩
abbrev S128 : Shape := ⟨1, ![128]⟩
abbrev S96x128 : Shape := ⟨2, ![96, 128]⟩
abbrev S96 : Shape := ⟨1, ![96]⟩
abbrev S96x96 : Shape := ⟨2, ![96, 96]⟩
abbrev S256x96 : Shape := ⟨2, ![256, 96]⟩
abbrev S256 : Shape := ⟨1, ![256]⟩
abbrev S50000x1 : Shape := ⟨2, ![50000, 1]⟩
abbrev S1x10 : Shape := ⟨2, ![1, 10]⟩
abbrev S50000x10 : Shape := ⟨2, ![50000, 10]⟩
abbrev S50000x138 : Shape := ⟨2, ![50000, 138]⟩
abbrev S138x128 : Shape := ⟨2, ![138, 128]⟩
abbrev S1x128 : Shape := ⟨2, ![1, 128]⟩
abbrev S_ : Shape := ⟨0, ![]⟩
abbrev S128x96 : Shape := ⟨2, ![128, 96]⟩
abbrev S50000x96 : Shape := ⟨2, ![50000, 96]⟩
abbrev S1x96 : Shape := ⟨2, ![1, 96]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x96 : Shape := ⟨2, ![850000, 96]⟩
abbrev S96x256 : Shape := ⟨2, ![96, 256]⟩
abbrev S50000x256 : Shape := ⟨2, ![50000, 256]⟩
abbrev S1x256 : Shape := ⟨2, ![1, 256]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S2x800000, .i32⟩
  | .hbm, ⟨3, _⟩ => ⟨S128x138, .f32⟩
  | .hbm, ⟨4, _⟩ => ⟨S128, .f32⟩
  | .hbm, ⟨5, _⟩ => ⟨S96x128, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S256x96, .f32⟩
  | .hbm, ⟨10, _⟩ => ⟨S256, .f32⟩
  | .hbm, ⟨11, _⟩ => ⟨S50000x1, .i32⟩
  | .hbm, ⟨12, _⟩ => ⟨S1x10, .i32⟩
  | .hbm, ⟨13, _⟩ => ⟨S50000x10, .i32⟩
  | .hbm, ⟨14, _⟩ => ⟨S50000x10, .i32⟩
  | .hbm, ⟨15, _⟩ => ⟨S50000x10, .i1⟩
  | .hbm, ⟨16, _⟩ => ⟨S50000x10, .f32⟩
  | .hbm, ⟨17, _⟩ => ⟨S50000x138, .f32⟩
  | .hbm, ⟨18, _⟩ => ⟨S138x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S128x96, .f32⟩
  | .hbm, ⟨27, _⟩ => ⟨S50000x96, .f32⟩
  | .hbm, ⟨28, _⟩ => ⟨S1x96, .f32⟩
  | .hbm, ⟨29, _⟩ => ⟨S50000x96, .f32⟩
  | .hbm, ⟨30, _⟩ => ⟨S50000x96, .f32⟩
  | .hbm, ⟨31, _⟩ => ⟨S96x96, .f32⟩
  | .hbm, ⟨32, _⟩ => ⟨S50000x96, .f32⟩
  | .hbm, ⟨33, _⟩ => ⟨S50000, .i32⟩
  | .hbm, ⟨34, _⟩ => ⟨S1x800000, .i32⟩
  | .hbm, ⟨35, _⟩ => ⟨S800000, .i32⟩
  | .hbm, ⟨36, _⟩ => ⟨S850000, .i32⟩
  | .hbm, ⟨37, _⟩ => ⟨S1x800000, .i32⟩
  | .hbm, ⟨38, _⟩ => ⟨S800000, .i32⟩
  | .hbm, ⟨39, _⟩ => ⟨S850000, .i32⟩
  | .hbm, ⟨40, _⟩ => ⟨S_, .f32⟩
  | .hbm, ⟨41, _⟩ => ⟨S850000, .f32⟩
  | .hbm, ⟨42, _⟩ => ⟨S_, .f32⟩
  | .hbm, ⟨43, _⟩ => ⟨S50000, .f32⟩
  | .hbm, ⟨44, _⟩ => ⟨S850000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .i1⟩
  | .hbm, ⟨49, _⟩ => ⟨S50000, .f32⟩
  | .hbm, ⟨50, _⟩ => ⟨S_, .f32⟩
  | .hbm, ⟨51, _⟩ => ⟨S_, .f32⟩
  | .hbm, ⟨52, _⟩ => ⟨S50000, .f32⟩
  | .hbm, ⟨53, _⟩ => ⟨S50000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000, .f32⟩
  | .hbm, ⟨72, _⟩ => ⟨S850000, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x96, .f32⟩
  | .hbm, ⟨82, _⟩ => ⟨S850000x1, .f32⟩
  | .hbm, ⟨83, _⟩ => ⟨S850000x96, .f32⟩
  | .hbm, ⟨84, _⟩ => ⟨S850000x96, .f32⟩
  | .hbm, ⟨85, _⟩ => ⟨S_, .f32⟩
  | .hbm, ⟨86, _⟩ => ⟨S50000x96, .f32⟩
  | .hbm, ⟨87, _⟩ => ⟨S850000x1, .i32⟩
  | .hbm, ⟨88, _⟩ => ⟨S50000x96, .f32⟩
  | .hbm, ⟨89, _⟩ => ⟨S1x96, .f32⟩
  | .hbm, ⟨90, _⟩ => ⟨S50000x96, .f32⟩
  | .hbm, ⟨91, _⟩ => ⟨S50000x96, .f32⟩
  | .hbm, ⟨92, _⟩ => ⟨S_, .f32⟩
  | .hbm, ⟨93, _⟩ => ⟨S50000x96, .f32⟩
  | .hbm, ⟨94, _⟩ => ⟨S50000x96, .f32⟩
  | .hbm, ⟨95, _⟩ => ⟨S96x256, .f32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_cst : Ref sig .tc := ⟨.hbm, 23, rfl⟩
abbrev main_call1_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_cst_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_call2_v0 : Ref sig .tc := ⟨.hbm, 51, rfl⟩
abbrev main_call2_v1 : Ref sig .tc := ⟨.hbm, 52, rfl⟩
abbrev main_v29 : Ref sig .tc := ⟨.hbm, 53, rfl⟩
abbrev main_c : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_c_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_v45 : Ref sig .tc := ⟨.hbm, 74, rfl⟩
abbrev main_v46 : Ref sig .tc := ⟨.hbm, 75, rfl⟩
abbrev main_c_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  bcast_S1x10_S50000x10_0_1 : S1x10.BroadcastsInDim S50000x10 (![0, 1] : Fin 2 → Fin S50000x10.rank)
  concatenates_S50000x128_S50000x10_S50000x138_d1 : Shape.Concatenates [S50000x128, S50000x10] S50000x138 1
  transposes_S128x138_S138x128_1_0 : S128x138.Transposes [1, 0] S138x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S96x128_S128x96_1_0 : S96x128.Transposes [1, 0] S128x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  transposes_S96x96_S96x96_1_0 : S96x96.Transposes [1, 0] S96x96
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  transposes_S256x96_S96x256_1_0 : S256x96.Transposes [1, 0] S96x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x138_S138x128_S50000x128_1_0_0_1_n_n_wf : DotDims.WF S50000x138 S138x128 S50000x128 [1] [0] [0] [1] [] []
  dot_S50000x128_S128x96_S50000x96_1_0_0_1_n_n_wf : DotDims.WF S50000x128 S128x96 S50000x96 [1] [0] [0] [1] [] []
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x256_S50000x256_1_0_0_1_n_n_wf : DotDims.WF S50000x96 S96x256 S50000x256 [1] [0] [0] [1] [] []

variable [Facts₀]

def dot_S50000x138_S138x128_S50000x128_1_0_0_1_n_n : DotDims S50000x138 S138x128 S50000x128 where
  lhsContracting := [1]
  rhsContracting := [0]
  lhsNonContracting := [0]
  rhsNonContracting := [1]
  lhsBatch := []
  rhsBatch := []
  wf := dot_S50000x138_S138x128_S50000x128_1_0_0_1_n_n_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf

class Facts : Prop extends Facts₀ where

variable [Facts]
-- ==== Proof.NodeSpec.lean ====
/-
  What the two programs compute, one node (one row) at a time, on the extended reals.

  A node carries a latent row `z` (128 entries) and a class label word `y`. With the first layer's weight
  matrix cut into its latent columns `w1a` (128 × 128) and its class columns `w1b` (10 × 128), both held
  contraction index first,

    hidden a = max (∑ k, z k · w1a k a + ∑ k, [y = k] · w1b k a + b1 a) 0
    feat   b = ∑ a, hidden a · w2 a b + b2 b
    proj   j = ∑ b, feat b · gw b j

  is the row the graph convolution aggregates over the edges; the indicator `[y = k]` is the one-hot
  class vector. After the aggregation a node's row `r` (96 entries) is finished by

    fin j = ∑ k, max (r k + gb k) 0 · wf k j + bf j.

  The kernel computes `proj` and `fin` block by block with the class columns as a second product; the
  reference multiplies the concatenated row (138 entries) by the uncut matrix, and the two agree because
  a sum over 128 + 10 terms is the sum of its two parts (`sum_split`): only associativity and
  commutativity of addition on the extended reals are used, so no finiteness is needed.
-/
import Idealize.ShloMosaic.PureOps.Ideal
import Mathlib.Algebra.BigOperators.Fin

noncomputable section

namespace Cert.NodeSpec

open Idealize.ShloMosaic

/-- The class indicator `[y = k]` as an extended real: the comparison's bit read as a number. -/
def ind (y : BitVec 32) (k : Fin 10) : EReal :=
  (((IntOp.cmpi .eq y (BitVec.ofNat 32 k.val)).toNat : ℝ) : EReal)

/-- The hidden layer of one node: the latent part and the class part of the first product, the bias, the
    rectifier. -/
def hidden (z : Fin 128 → EReal) (y : BitVec 32) (w1a : Fin 128 → Fin 128 → EReal) (w1b : Fin 10 → Fin 128 → EReal)
    (b1 : Fin 128 → EReal) (a : Fin 128) : EReal :=
  max ((∑ k : Fin 128, z k * w1a k a) + (∑ k : Fin 10, ind y k * w1b k a) + b1 a) 0

/-- The teacher features of one node. -/
def feat (z : Fin 128 → EReal) (y : BitVec 32) (w1a : Fin 128 → Fin 128 → EReal) (w1b : Fin 10 → Fin 128 → EReal)
    (b1 : Fin 128 → EReal) (w2 : Fin 128 → Fin 96 → EReal) (b2 : Fin 96 → EReal) (b : Fin 96) : EReal :=
  (∑ a : Fin 128, hidden z y w1a w1b b1 a * w2 a b) + b2 b

/-- The row the graph convolution aggregates: the features times the convolution's weight. -/
def proj (z : Fin 128 → EReal) (y : BitVec 32) (w1a : Fin 128 → Fin 128 → EReal) (w1b : Fin 10 → Fin 128 → EReal)
    (b1 : Fin 128 → EReal) (w2 : Fin 128 → Fin 96 → EReal) (b2 : Fin 96 → EReal) (gw : Fin 96 → Fin 96 → EReal)
    (j : Fin 96) : EReal :=
  ∑ b : Fin 96, feat z y w1a w1b b1 w2 b2 b * gw b j

/-- An aggregated row finished: bias, rectifier, the output projection and its bias. -/
def fin (r : Fin 96 → EReal) (gb : Fin 96 → EReal) (wf : Fin 96 → Fin 256 → EReal) (bf : Fin 256 → EReal)
    (j : Fin 256) : EReal :=
  (∑ k : Fin 96, max (r k + gb k) 0 * wf k j) + bf j

/-- A sum over 128 + 10 terms is the sum over the first 128 plus the sum over the last 10. -/
theorem sum_split (f : Fin 138 → EReal) :
    ∑ k : Fin 138, f k = (∑ k : Fin 128, f (Fin.castAdd 10 k)) + ∑ k : Fin 10, f (Fin.natAdd 128 k) :=
  Fin.sum_univ_add (a := 128) (b := 10) f

end Cert.NodeSpec

end
-- ==== Proof.PayloadMlp.lean ====
/-
  The first kernel's arithmetic on one block of 5000 nodes, read at an entry: row `p`, column `j` of the block it
  stores is `NodeSpec.proj` of the block's row `p` (latent row and label word) and of the weight blocks as loaded
  (contraction index first).

  Each of the four block products accumulates into the zero block, so at an entry it is the sum over the contraction
  index of the operands' products; the one-hot block's entry is the class indicator of the row's label word (equality
  of words is symmetric); a one-row block laid along the rows reads the row's entry; the narrowing format changes are
  the identity on the extended reals and the rectifier's zero block reads 0. The three layers of `NodeSpec` are then
  matched sum by sum.
-/
import proofs.«124773_j87729001988299_1_alg».proof.Proof.Gen.KernelIdeal.Skeleton
import proofs.«124773_j87729001988299_1_alg».proof.Proof.NodeSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Payload

open Cert.KernelIdeal Cert.KernelIdeal.Gen Idealize.ShloMosaic Idealize.ShloMosaic.ValueIdx

/-- The left operand's row coordinate of the product w1a is the output's row. -/
theorem lhs_w1a_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_w1a_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_w1a_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_w1a_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The product w1a into the zero block, at an entry: the sum over the contraction index of the operands' products. -/
theorem matmul_w1a_apply (A : FVec Ideal S5000x128 .bf16) (B : FVec Ideal S128x128 .bf16) (p : Fin 5000) (c : Fin 128) :
    matmul dot_S5000x128_S128x128_S5000x128_1_0_0_1_n_n none A B (constant (F := Ideal) S5000x128 .f32 0x00000000#32) (ix2 p c)
      = ∑ k : Fin 128, A (ix2 p k) * B (ix2 k c) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p c) ((ValueIdx.contrEquiv1 dot_S5000x128_S128x128_S5000x128_1_0_0_1_n_n 128 rfl rfl).symm k) = ix2 p k := funext fun a => Fin.ext (by
    match a with
    | ⟨0, _⟩ => exact lhs_w1a_0 _ _
    | ⟨1, _⟩ => exact (lhs_w1a_1 _ _).trans hk)
  have er : dot_S5000x128_S128x128_S5000x128_1_0_0_1_n_n.rhsIdx (ix2 p c) ((ValueIdx.contrEquiv1 dot_S5000x128_S128x128_S5000x128_1_0_0_1_n_n 128 rfl rfl).symm k) = ix2 k c := funext fun a => Fin.ext (by
    match a with
    | ⟨0, _⟩ => exact (rhs_w1a_0 _ _).trans hk
    | ⟨1, _⟩ => exact rhs_w1a_1 _ _)
  rw [el, er]

/-- The left operand's row coordinate of the product w1b is the output's row. -/
theorem lhs_w1b_0 (i : S5000x128.Idx) (q : dot_S5000x10_S10x128_S5000x128_1_0_0_1_n_n.contr.Idx) :
    (dot_S5000x10_S10x128_S5000x128_1_0_0_1_n_n.lhsIdx i q 0).val = (i 0).val := by
  unfold DotDims.lhsIdx
  rw [dif_neg (show ¬(0 : Fin S5000x10.rank) ∈ dot_S5000x10_S10x128_S5000x128_1_0_0_1_n_n.lhsBatch by decide), dif_pos (show (0 : Fin S5000x10.rank) ∈ dot_S5000x10_S10x128_S5000x128_1_0_0_1_n_n.lhsNonContracting by decide)]
  rfl
/-- The left operand's column coordinate is the contraction index. -/
theorem lhs_w1b_1 (i : S5000x128.Idx) (q : dot_S5000x10_S10x128_S5000x128_1_0_0_1_n_n.contr.Idx) :
    (dot_S5000x10_S10x128_S5000x128_1_0_0_1_n_n.lhsIdx i q 1).val = (q ⟨0, by decide⟩).val :=
  dot_S5000x10_S10x128_S5000x128_1_0_0_1_n_n.lhsIdx_val_of_single rfl i q
/-- The right operand's row coordinate is the contraction index. -/
theorem rhs_w1b_0 (i : S5000x128.Idx) (q : dot_S5000x10_S10x128_S5000x128_1_0_0_1_n_n.contr.Idx) :
    (dot_S5000x10_S10x128_S5000x128_1_0_0_1_n_n.rhsIdx i q 0).val = (q ⟨0, by decide⟩).val :=
  dot_S5000x10_S10x128_S5000x128_1_0_0_1_n_n.rhsIdx_val_of_single rfl i q
/-- The right operand's column coordinate is the output's column. -/
theorem rhs_w1b_1 (i : S5000x128.Idx) (q : dot_S5000x10_S10x128_S5000x128_1_0_0_1_n_n.contr.Idx) :
    (dot_S5000x10_S10x128_S5000x128_1_0_0_1_n_n.rhsIdx i q 1).val = (i 1).val := by
  unfold DotDims.rhsIdx
  rw [dif_neg (show ¬(1 : Fin S10x128.rank) ∈ dot_S5000x10_S10x128_S5000x128_1_0_0_1_n_n.rhsBatch by decide), dif_pos (show (1 : Fin S10x128.rank) ∈ dot_S5000x10_S10x128_S5000x128_1_0_0_1_n_n.rhsNonContracting by decide)]
  rfl
/-- The product w1b into the zero block, at an entry: the sum over the contraction index of the operands' products. -/
theorem matmul_w1b_apply (A : FVec Ideal S5000x10 .bf16) (B : FVec Ideal S10x128 .bf16) (p : Fin 5000) (c : Fin 128) :
    matmul dot_S5000x10_S10x128_S5000x128_1_0_0_1_n_n none A B (constant (F := Ideal) S5000x128 .f32 0x00000000#32) (ix2 p c)
      = ∑ k : Fin 10, A (ix2 p k) * B (ix2 k c) := by
  simp only [matmul]
  rw [Ideal.matmul_constant_zero_apply, ← Equiv.sum_comp (ValueIdx.contrEquiv1 dot_S5000x10_S10x128_S5000x128_1_0_0_1_n_n 10 rfl rfl).symm]
  refine Finset.sum_congr rfl fun k _ => ?_
  have hk := ValueIdx.contrEquiv1_symm_val dot_S5000x10_S10x128_S5000x128_1_0_0_1_n_n 10 rfl rfl k
  have el : dot_S5000x10_S10x128_S5000x128_1_0_0_1_n_n.lhsIdx (ix2 p c) ((ValueIdx.contrEquiv1 dot_S5000x10_S10x128_S5000x128_1_0_0_1_n_n 10 rfl rfl).symm k) = ix2 p k := funext fun a => Fin.ext (by
    match a with
    | ⟨0, _⟩ => exact lhs_w1b_0 _ _
    | ⟨1, _⟩ => exact (lhs_w1b_1 _ _).trans hk)
  have er : dot_S5000x10_S10x128_S5000x128_1_0_0_1_n_n.rhsIdx (ix2 p c) ((ValueIdx.contrEquiv1 dot_S5000x10_S10x128_S5000x128_1_0_0_1_n_n 10 rfl rfl).symm k) = ix2 k c := funext fun a => Fin.ext (by
    match a with
    | ⟨0, _⟩ => exact (rhs_w1b_0 _ _).trans hk
    | ⟨1, _⟩ => exact rhs_w1b_1 _ _)
  rw [el, er]

/-- The left operand's row coordinate of the product w2 is the output's row. -/
theorem lhs_w2_0 (i : S5000x96.Idx) (q : dot_S5000x128_S128x96_S5000x96_1_0_0_1_n_n.contr.Idx) :
    (dot_S5000x128_S128x96_S5000x96_1_0_0_1_n_n.lhsIdx i q 0).val = (i 0).val := by
  unfold DotDims.lhsIdx
  rw [dif_neg (show ¬(0 : Fin S5000x128.rank) ∈ dot_S5000x128_S128x96_S5000x96_1_0_0_1_n_n.lhsBatch by decide), dif_pos (show (0 : Fin S5000x128.rank) ∈ dot_S5000x128_S128x96_S5000x96_1_0_0_1_n_n.lhsNonContracting by decide)]
  rfl
/-- The left operand's column coordinate is the contraction index. -/
theorem lhs_w2_1 (i : S5000x96.Idx) (q : dot_S5000x128_S128x96_S5000x96_1_0_0_1_n_n.contr.Idx) :
    (dot_S5000x128_S128x96_S5000x96_1_0_0_1_n_n.lhsIdx i q 1).val = (q ⟨0, by decide⟩).val :=
  dot_S5000x128_S128x96_S5000x96_1_0_0_1_n_n.lhsIdx_val_of_single rfl i q
/-- The right operand's row coordinate is the contraction index. -/
theorem rhs_w2_0 (i : S5000x96.Idx) (q : dot_S5000x128_S128x96_S5000x96_1_0_0_1_n_n.contr.Idx) :
    (dot_S5000x128_S128x96_S5000x96_1_0_0_1_n_n.rhsIdx i q 0).val = (q ⟨0, by decide⟩).val :=
  dot_S5000x128_S128x96_S5000x96_1_0_0_1_n_n.rhsIdx_val_of_single rfl i q
/-- The right operand's column coordinate is the output's column. -/
theorem rhs_w2_1 (i : S5000x96.Idx) (q : dot_S5000x128_S128x96_S5000x96_1_0_0_1_n_n.contr.Idx) :
    (dot_S5000x128_S128x96_S5000x96_1_0_0_1_n_n.rhsIdx i q 1).val = (i 1).val := by
  unfold DotDims.rhsIdx
  rw [dif_neg (show ¬(1 : Fin S128x96.rank) ∈ dot_S5000x128_S128x96_S5000x96_1_0_0_1_n_n.rhsBatch by decide), dif_pos (show (1 : Fin S128x96.rank) ∈ dot_S5000x128_S128x96_S5000x96_1_0_0_1_n_n.rhsNonContracting by decide)]
  rfl
/-- The product w2 into the zero block, at an entry: the sum over the contraction index of the operands' products. -/
theorem matmul_w2_apply (A : FVec Ideal S5000x128 .bf16) (B : FVec Ideal S128x96 .bf16) (p : Fin 5000) (c : Fin 96) :
    matmul dot_S5000x128_S128x96_S5000x96_1_0_0_1_n_n none A B (constant (F := Ideal) S5000x96 .f32 0x00000000#32) (ix2 p c)
      = ∑ k : Fin 128, A (ix2 p k) * B (ix2 k c) := by
  simp only [matmul]
  rw [Ideal.matmul_constant_zero_apply, ← Equiv.sum_comp (ValueIdx.contrEquiv1 dot_S5000x128_S128x96_S5000x96_1_0_0_1_n_n 128 rfl rfl).symm]
  refine Finset.sum_congr rfl fun k _ => ?_
  have hk := ValueIdx.contrEquiv1_symm_val dot_S5000x128_S128x96_S5000x96_1_0_0_1_n_n 128 rfl rfl k
  have el : dot_S5000x128_S128x96_S5000x96_1_0_0_1_n_n.lhsIdx (ix2 p c) ((ValueIdx.contrEquiv1 dot_S5000x128_S128x96_S5000x96_1_0_0_1_n_n 128 rfl rfl).symm k) = ix2 p k := funext fun a => Fin.ext (by
    match a with
    | ⟨0, _⟩ => exact lhs_w2_0 _ _
    | ⟨1, _⟩ => exact (lhs_w2_1 _ _).trans hk)
  have er : dot_S5000x128_S128x96_S5000x96_1_0_0_1_n_n.rhsIdx (ix2 p c) ((ValueIdx.contrEquiv1 dot_S5000x128_S128x96_S5000x96_1_0_0_1_n_n 128 rfl rfl).symm k) = ix2 k c := funext fun a => Fin.ext (by
    match a with
    | ⟨0, _⟩ => exact (rhs_w2_0 _ _).trans hk
    | ⟨1, _⟩ => exact rhs_w2_1 _ _)
  rw [el, er]

/-- The left operand's row coordinate of the product gw is the output's row. -/
theorem lhs_gw_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
/-- The left operand's column coordinate is the contraction index. -/
theorem lhs_gw_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
/-- The right operand's row coordinate is the contraction index. -/
theorem rhs_gw_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
/-- The right operand's column coordinate is the output's column. -/
theorem rhs_gw_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl
/-- The product gw into the zero block, at an entry: the sum over the contraction index of the operands' products. -/
theorem matmul_gw_apply (A : FVec Ideal S5000x96 .bf16) (B : FVec Ideal S96x96 .bf16) (p : Fin 5000) (c : Fin 96) :
    matmul dot_S5000x96_S96x96_S5000x96_1_0_0_1_n_n none A B (constant (F := Ideal) S5000x96 .f32 0x00000000#32) (ix2 p c)
      = ∑ k : Fin 96, A (ix2 p k) * B (ix2 k c) := by
  simp only [matmul]
  rw [Ideal.matmul_constant_zero_apply, ← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx (ix2 p c) ((ValueIdx.contrEquiv1 dot_S5000x96_S96x96_S5000x96_1_0_0_1_n_n 96 rfl rfl).symm k) = ix2 p k := funext fun a => Fin.ext (by
    match a with
    | ⟨0, _⟩ => exact lhs_gw_0 _ _
    | ⟨1, _⟩ => exact (lhs_gw_1 _ _).trans hk)
  have er : dot_S5000x96_S96x96_S5000x96_1_0_0_1_n_n.rhsIdx (ix2 p c) ((ValueIdx.contrEquiv1 dot_S5000x96_S96x96_S5000x96_1_0_0_1_n_n 96 rfl rfl).symm k) = ix2 k c := funext fun a => Fin.ext (by
    match a with
    | ⟨0, _⟩ => exact (rhs_gw_0 _ _).trans hk
    | ⟨1, _⟩ => exact rhs_gw_1 _ _)
  rw [el, er]

/-- The comparison bit of word equality does not depend on the order of the two words. -/
theorem cmpi_eq_comm (x y : BitVec 32) : IntOp.cmpi .eq x y = IntOp.cmpi .eq y x := by
  unfold IntOp.cmpi
  exact congrArg BitVec.ofBool BEq.comm

/-- A one-row block laid along every row of a 5000-row block, at an entry: the row's entry in that column. -/
theorem row_bcast_apply {α : Type} {n : Nat} (v : (⟨2, ![1, n]⟩ : Shape).Idx → α) (hn : n ≠ 1)
    (h : (⟨2, ![1, n]⟩ : Shape).Broadcasts ⟨2, ![5000, n]⟩) (p : Fin 5000) (a : Fin n) :
    broadcastTo (⟨2, ![5000, n]⟩ : Shape) v h (ix2 p a) = v (ix2 0 a) :=
  broadcastTo_apply v h (ix2 p a) (ix2 0 a) (fun b => match b with
    | ⟨0, _⟩ => by show 0 = if (1 : Nat) = 1 then 0 else p.val; rw [if_pos rfl]
    | ⟨1, _⟩ => by show a.val = if n = 1 then 0 else a.val; rw [if_neg hn])

/-- A one-column block laid along every column of a ten-column block, at an entry: the column's entry in that row. -/
theorem col_bcast_apply {α : Type} (v : S5000x1.Idx → α) (p : Fin 5000) (k : Fin 10) :
    broadcastTo S5000x10 v broadcasts_S5000x1_S5000x10 (ix2 p k) = v (ix2 p 0) :=
  broadcastTo_apply v broadcasts_S5000x1_S5000x10 (ix2 p k) (ix2 p 0) (fun b => match b with
    | ⟨0, _⟩ => by show p.val = if (5000 : Nat) = 1 then 0 else p.val; rw [if_neg (by decide)]
    | ⟨1, _⟩ => by show 0 = if (1 : Nat) = 1 then 0 else k.val; rw [if_pos rfl])

/-- The one-hot block at an entry: the class indicator of the row's label word. -/
theorem onehot_apply (y : IVec S5000x1 32) (p : Fin 5000) (k : Fin 10) :
    (sitofp (F := Ideal) .f32 (extui 32 (cmpi .eq (iota .tc S5000x10 32 [1] iota_S5000x10_d1_w32)
        (broadcastTo S5000x10 y broadcasts_S5000x1_S5000x10)) natLt_1_32) : FVec Ideal S5000x10 .f32) (ix2 p k)
      = Cert.NodeSpec.ind (y (ix2 p 0)) k := by
  rw [sitofp_extui_eq_uitofp]
  show (((IntOp.cmpi .eq (iota .tc S5000x10 32 [1] iota_S5000x10_d1_w32 (ix2 p k))
      (broadcastTo S5000x10 y broadcasts_S5000x1_S5000x10 (ix2 p k))).toNat : ℝ) : EReal) = _
  rw [iota_single_apply, col_bcast_apply, cmpi_eq_comm]
  rfl

theorem mlp_apply (x0 : Vec Ideal S5000x128 .f32) (x1 : Vec Ideal S5000x1 .i32) (x2 : Vec Ideal S128x128 .bf16)
    (x3 : Vec Ideal S10x128 .bf16) (x4 : Vec Ideal S1x128 .f32) (x5 : Vec Ideal S128x96 .bf16) (x6 : Vec Ideal S1x96 .f32)
    (x7 : Vec Ideal S96x96 .bf16) (p : Fin 5000) (j : Fin 96) :
    k0_pay1 (F := Ideal) x0 x1 x2 x3 x4 x5 x6 x7 (ix2 p j)
      = Cert.NodeSpec.proj (fun k => x0 (ix2 p k)) (x1 (ix2 p 0)) (fun k a => x2 (ix2 k a)) (fun k a => x3 (ix2 k a))
          (fun a => x4 (ix2 0 a)) (fun a b => x5 (ix2 a b)) (fun b => x6 (ix2 0 b)) (fun b j => x7 (ix2 b j)) j := by
  unfold k0_pay1
  dsimp only
  simp only [shapeCast_self]
  refine (matmul_gw_apply _ _ p j).trans ?_
  unfold Cert.NodeSpec.proj
  refine Finset.sum_congr rfl fun b _ => ?_
  refine congrArg (· * x7 (ix2 b j)) ?_
  refine (truncf_apply (φ := .f32) (ψ := .bf16) _ bitsLt_bf16_f32 _).trans ?_
  refine (addf_apply _ _ _).trans ?_
  unfold Cert.NodeSpec.feat
  refine congrArg₂ (· + ·) ?_ ?_
  · refine (matmul_w2_apply _ _ p b).trans ?_
    refine Finset.sum_congr rfl fun a _ => ?_
    refine congrArg (· * x5 (ix2 a b)) ?_
    refine (truncf_apply (φ := .f32) (ψ := .bf16) _ bitsLt_bf16_f32 _).trans ?_
    refine (maximumf_apply _ _ _).trans ?_
    unfold Cert.NodeSpec.hidden
    refine congrArg₂ max ?_ ?_
    · refine (addf_apply _ _ _).trans ?_
      refine congrArg₂ (· + ·) ?_ ?_
      · refine (addf_apply _ _ _).trans ?_
        refine congrArg₂ (· + ·) ?_ ?_
        · refine (matmul_w1a_apply _ _ p a).trans ?_
          exact Finset.sum_congr rfl fun k _ => rfl
        · refine (matmul_w1b_apply _ _ p a).trans ?_
          refine Finset.sum_congr rfl fun k _ => ?_
          refine congrArg (· * x3 (ix2 k a)) ?_
          refine (truncf_apply (φ := .f32) (ψ := .bf16) _ bitsLt_bf16_f32 _).trans ?_
          exact onehot_apply x1 p k
      · exact row_bcast_apply x4 (by decide) _ p a
    · exact Ideal.ofBits_zero_f32
  · exact row_bcast_apply x6 (by decide) _ p b

end Cert.KernelIdeal.Payload

end
-- ==== Proof.RegionMlp.lean ====
/-
  The first region's output array after its ten grid points, from ANY contents `V` the region is entered at: grid point
  `t` writes back rows 5000 t … 5000 t + 4999, the ten blocks tile the 50000 rows, and entry (p, j) is `NodeSpec.proj` of
  row `p` of the node arrays and of the (whole, resident) weight arrays.
-/
import proofs.«124773_j87729001988299_1_alg».proof.Proof.Gen.KernelIdeal.Frame
import proofs.«124773_j87729001988299_1_alg».proof.Proof.PayloadMlp

set_option maxRecDepth 16384

noncomputable section

namespace Cert.KernelIdeal.RegionMlp

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A rectangle at the origin of a rank-two array has both offsets zero. -/
theorem hz : (![0, 0] : Fin 2 → Nat) = fun _ => 0 := funext fun a => by fin_cases a <;> rfl

/-- The block index maps over the ten grid points: the node arrays' and the output's blocks move with the point along the
    rows and sit at column block zero; the weight and bias arrays stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- There are ten grid points. -/
theorem point_lt (t : Fin cfg0.N) : t.val < 10 := lt_of_lt_of_eq t.isLt (N_0 : cfg0.N = 10)

/-- Row `p` of the projected features, from the arrays as the region finds them. -/
def row (c : Dev nD) (p : Fin 50000) (j : Fin 96) : EReal :=
  Cert.NodeSpec.proj (fun k => V c main_arg0 (ix2 p k)) (V c main_v12 (ix2 p 0)) (fun k a => V c main_v2 (ix2 k a))
          (fun k a => V c main_v5 (ix2 k a)) (fun a => V c main_v6 (ix2 0 a)) (fun a b => V c main_v8 (ix2 a b))
          (fun b => V c main_v9 (ix2 0 b)) (fun b j => V c main_v11 (ix2 b j)) j

/-- The whole output array as one function of the entry contents: entry (p, j) is entry j of row p. -/
def G (c : Dev nD) : S50000x96.Idx → EReal := fun i => row V c ⟨(i 0).val, (i 0).isLt⟩ ⟨(i 1).val, (i 1).isLt⟩

/-- One block: if the eight loaded blocks are, entry by entry, rows of the node arrays and the whole weight arrays, and
    `g` is the projection of those rows, then the block the body computes is `g`. -/
theorem block_eq (x0 : Vec Ideal S5000x128 .f32) (x1 : Vec Ideal S5000x1 .i32) (x2 : Vec Ideal S128x128 .bf16)
    (x3 : Vec Ideal S10x128 .bf16) (x4 : Vec Ideal S1x128 .f32) (x5 : Vec Ideal S128x96 .bf16) (x6 : Vec Ideal S1x96 .f32)
    (x7 : Vec Ideal S96x96 .bf16) (g : S5000x96.Idx → EReal)
    (z : Fin 5000 → Fin 128 → EReal) (y : Fin 5000 → BitVec 32) (w1a : Fin 128 → Fin 128 → EReal)
    (w1b : Fin 10 → Fin 128 → EReal) (b1 : Fin 128 → EReal) (w2 : Fin 128 → Fin 96 → EReal) (b2 : Fin 96 → EReal)
    (gw : Fin 96 → Fin 96 → EReal)
    (h0 : ∀ q k, x0 (ix2 q k) = z q k) (h1 : ∀ q, x1 (ix2 q 0) = y q) (h2 : ∀ k a, x2 (ix2 k a) = w1a k a)
    (h3 : ∀ k a, x3 (ix2 k a) = w1b k a) (h4 : ∀ a, x4 (ix2 0 a) = b1 a) (h5 : ∀ a b, x5 (ix2 a b) = w2 a b)
    (h6 : ∀ b, x6 (ix2 0 b) = b2 b) (h7 : ∀ b j, x7 (ix2 b j) = gw b j)
    (hg : ∀ q j, g (ix2 q j) = Cert.NodeSpec.proj (z q) (y q) w1a w1b b1 w2 b2 gw j) :
    k0_pay1 (F := Ideal) x0 x1 x2 x3 x4 x5 x6 x7 = g := by
  funext i
  obtain ⟨q, j, rfl⟩ : ∃ (q : Fin 5000) (j : Fin 96), i = ix2 q j := ⟨i 0, i 1, eq_ix2 i⟩
  refine (Payload.mlp_apply x0 x1 x2 x3 x4 x5 x6 x7 q j).trans ?_
  rw [hg q j]
  have e0 : (fun k => x0 (ix2 q k)) = z q := funext fun k => h0 q k
  have e2 : (fun k a => x2 (ix2 k a)) = w1a := funext fun k => funext fun a => h2 k a
  have e3 : (fun k a => x3 (ix2 k a)) = w1b := funext fun k => funext fun a => h3 k a
  have e4 : (fun a => x4 (ix2 0 a)) = b1 := funext fun a => h4 a
  have e5 : (fun a b => x5 (ix2 a b)) = w2 := funext fun a => funext fun b => h5 a b
  have e6 : (fun b => x6 (ix2 0 b)) = b2 := funext fun b => h6 b
  have e7 : (fun b j => x7 (ix2 b j)) = gw := funext fun b => funext fun j => h7 b j
  rw [e0, h1 q, e2, e3, e4, e5, e6, e7]

/-- The latent block at point `t` is rows 5000 t … 5000 t + 4999 of the latent array. -/
theorem latent_blk (c : Dev nD) (t : Fin cfg0.N) (q : Fin 5000) (k : Fin 128) (r : Fin 50000)
    (hr : r.val = 5000 * t.val + q.val) :
    (iblk0 V c 0 t : Vec Ideal S5000x128 .f32) (ix2 q k) = V c main_arg0 (ix2 r k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * q.val = r.val; omega
  | ⟨1, _⟩ => show win0_0.index t (1 : Fin 2) * 128 + 1 * k.val = k.val; omega

/-- The label block at point `t` is rows 5000 t … 5000 t + 4999 of the label column. -/
theorem label_blk (c : Dev nD) (t : Fin cfg0.N) (q : Fin 5000) (r : Fin 50000)
    (hr : r.val = 5000 * t.val + q.val) :
    (iblk0 V c 1 t : Vec Ideal S5000x1 .i32) (ix2 q 0) = V c main_v12 (ix2 r 0) := by
  obtain ⟨-, -, e0, e1, -⟩ := idx_facts t
  unfold iblk0
  rw [View.read_apply]
  show V c main_v12 _ = V c main_v12 _
  refine congrArg (V c main_v12) ?_
  funext a
  apply Fin.ext
  match a with
  | ⟨0, _⟩ => show win0_1.index t (0 : Fin 2) * 5000 + 1 * q.val = r.val; omega
  | ⟨1, _⟩ => show win0_1.index t (1 : Fin 2) * 1 + 1 * 0 = 0; omega

/-- The first layer's latent columns are resident: every point's block is the whole array. -/
theorem w1a_blk (c : Dev nD) (t : Fin cfg0.N) (y : S128x128.Idx) :
    (iblk0 V c 2 t : Vec Ideal S128x128 .bf16) y = V c main_v2 y := by
  obtain ⟨-, -, -, -, e0, e1, -⟩ := idx_facts t
  unfold iblk0
  rw [View.read_apply]
  show V c main_v2 _ = V c main_v2 _
  refine congrArg (V c main_v2) ?_
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first layer's class columns are resident: every point's block is the whole array. -/
theorem w1b_blk (c : Dev nD) (t : Fin cfg0.N) (y : S10x128.Idx) :
    (iblk0 V c 3 t : Vec Ideal S10x128 .bf16) y = V c main_v5 y := by
  obtain ⟨-, -, -, -, -, -, e0, e1, -⟩ := idx_facts t
  unfold iblk0
  rw [View.read_apply]
  show V c main_v5 _ = V c main_v5 _
  refine congrArg (V c main_v5) ?_
  funext a
  apply Fin.ext
  match a with
  | ⟨0, _⟩ => show win0_3.index t (0 : Fin 2) * 10 + 1 * (y 0).val = (y 0).val; omega
  | ⟨1, _⟩ => show win0_3.index t (1 : Fin 2) * 128 + 1 * (y 1).val = (y 1).val; omega

/-- The first bias row is resident: every point's block is the whole array. -/
theorem b1_blk (c : Dev nD) (t : Fin cfg0.N) (y : S1x128.Idx) :
    (iblk0 V c 4 t : Vec Ideal S1x128 .f32) y = V c main_v6 y := by
  obtain ⟨-, -, -, -, -, -, -, -, e0, e1, -⟩ := idx_facts t
  unfold iblk0
  rw [View.read_apply]
  show V c main_v6 _ = V c main_v6 _
  refine congrArg (V c main_v6) ?_
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second layer's weight is resident: every point's block is the whole array. -/
theorem w2_blk (c : Dev nD) (t : Fin cfg0.N) (y : S128x96.Idx) :
    (iblk0 V c 5 t : Vec Ideal S128x96 .bf16) y = V c main_v8 y := by
  obtain ⟨-, -, -, -, -, -, -, -, -, -, e0, e1, -⟩ := idx_facts t
  unfold iblk0
  rw [View.read_apply]
  show V c main_v8 _ = V c main_v8 _
  refine congrArg (V c main_v8) ?_
  funext a
  apply Fin.ext
  match a with
  | ⟨0, _⟩ => show win0_5.index t (0 : Fin 2) * 128 + 1 * (y 0).val = (y 0).val; omega
  | ⟨1, _⟩ => show win0_5.index t (1 : Fin 2) * 96 + 1 * (y 1).val = (y 1).val; omega

/-- The second bias row is resident: every point's block is the whole array. -/
theorem b2_blk (c : Dev nD) (t : Fin cfg0.N) (y : S1x96.Idx) :
    (iblk0 V c 6 t : Vec Ideal S1x96 .f32) y = V c main_v9 y := by
  obtain ⟨-, -, -, -, -, -, -, -, -, -, -, -, e0, e1, -⟩ := idx_facts t
  unfold iblk0
  rw [View.read_apply]
  show V c main_v9 _ = V c main_v9 _
  refine congrArg (V c main_v9) ?_
  funext a
  apply Fin.ext
  match a with
  | ⟨0, _⟩ => show win0_6.index t (0 : Fin 2) * 1 + 1 * (y 0).val = (y 0).val; omega
  | ⟨1, _⟩ => show win0_6.index t (1 : Fin 2) * 96 + 1 * (y 1).val = (y 1).val; omega

/-- The convolution's weight is resident: every point's block is the whole array. -/
theorem gw_blk (c : Dev nD) (t : Fin cfg0.N) (y : S96x96.Idx) :
    (iblk0 V c 7 t : Vec Ideal S96x96 .bf16) y = V c main_v11 y := by
  obtain ⟨-, -, -, -, -, -, -, -, -, -, -, -, -, -, e0, e1, -⟩ := idx_facts t
  unfold iblk0
  rw [View.read_apply]
  show V c main_v11 _ = V c main_v11 _
  refine congrArg (V c main_v11) ?_
  funext a
  apply Fin.ext
  match a with
  | ⟨0, _⟩ => show win0_7.index t (0 : Fin 2) * 96 + 1 * (y 0).val = (y 0).val; omega
  | ⟨1, _⟩ => show win0_7.index t (1 : Fin 2) * 96 + 1 * (y 1).val = (y 1).val; omega

/-- Block `t` of the whole-array function, read at (q, j), is entry j of row 5000 t + q. -/
theorem G_blk (c : Dev nD) (t : Fin cfg0.N) (q : Fin 5000) (j : Fin 96) (r : Fin 50000)
    (hr : r.val = 5000 * t.val + q.val) :
    ((cfg0.win 8).blk t).view.read (Elt Ideal) (G V c) (ix2 q j) = row V c r j := by
  obtain ⟨-, -, -, -, -, -, -, -, -, -, -, -, -, -, -, -, e0, e1⟩ := idx_facts t
  rw [View.read_apply]
  show row V c ⟨_, _⟩ ⟨_, _⟩ = row V c r j
  refine congrArg₂ (row V c) (Fin.ext ?_) (Fin.ext ?_)
  · show win0_8.index t (0 : Fin 2) * 5000 + 1 * q.val = r.val; omega
  · show win0_8.index t (1 : Fin 2) * 96 + 1 * j.val = j.val; omega

/-- What grid point `t` writes back is block `t` of the whole-array function. -/
theorem flushed_eq (c : Dev nD) (t : Fin cfg0.N) :
    (dat0 (F := Ideal) V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S5000x128) hz, View.ld_unit_zero (S := S5000x1) hz, View.ld_unit_zero (S := S128x128) hz,
    View.ld_unit_zero (S := S10x128) hz, View.ld_unit_zero (S := S1x128) hz, View.ld_unit_zero (S := S128x96) hz,
    View.ld_unit_zero (S := S1x96) hz, View.ld_unit_zero (S := S96x96) hz]
  have ht := point_lt t
  exact block_eq (iblk0 V c 0 t) (iblk0 V c 1 t) (iblk0 V c 2 t) (iblk0 V c 3 t) (iblk0 V c 4 t) (iblk0 V c 5 t)
    (iblk0 V c 6 t) (iblk0 V c 7 t) _
    (fun q k => V c main_arg0 (ix2 (⟨5000 * t.val + q.val, by have := q.isLt; omega⟩ : Fin 50000) k))
    (fun q => V c main_v12 (ix2 (⟨5000 * t.val + q.val, by have := q.isLt; omega⟩ : Fin 50000) 0))
    (fun k a => V c main_v2 (ix2 k a)) (fun k a => V c main_v5 (ix2 k a)) (fun a => V c main_v6 (ix2 0 a))
    (fun a b => V c main_v8 (ix2 a b)) (fun b => V c main_v9 (ix2 0 b)) (fun b j => V c main_v11 (ix2 b j))
    (fun q k => latent_blk V c t q k _ rfl) (fun q => label_blk V c t q _ rfl)
    (fun k a => w1a_blk V c t (ix2 k a)) (fun k a => w1b_blk V c t (ix2 k a)) (fun a => b1_blk V c t (ix2 0 a))
    (fun a b => w2_blk V c t (ix2 a b)) (fun b => b2_blk V c t (ix2 0 b)) (fun b j => gw_blk V c t (ix2 b j))
    (fun q j => G_blk V c t q j _ rfl)

/-- An index of the output array is in point `t`'s block iff each coordinate is in the block's range on its axis. -/
theorem mem_blk (t : Fin cfg0.N) (i : S50000x96.Idx) :
    i ∈ ((cfg0.win 8).blk t).view.set ↔ ∀ a : Fin 2, win0_8.index t a * S5000x96.size a ≤ (i a).val ∧ (i a).val < win0_8.index t a * S5000x96.size a + S5000x96.size a := by
  show i ∈ ((View.whole main_v13).slice (win0_8.rect t)).set ↔ _
  rw [View.set_slice_whole, Rect.mem_set_unit]
  exact Iff.rfl

/-- The ten blocks tile the rows: row r is in the block of point r / 5000. -/
theorem cover (i : S50000x96.Idx) :
    ∃ t : Fin cfg0.N, (cfg0.win 8).flush t = true ∧ i ∈ ((cfg0.win 8).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, -, -, -, -, -, -, e0, e1⟩ := idx_facts t
  refine ⟨t, flush0_8 t, ?_⟩
  rw [mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 96 ≤ (i 1).val ∧ (i 1).val < win0_8.index t (1 : Fin 2) * 96 + 96; omega

/-- The output array after the ten points is the whole-array function. -/
theorem final (c : Dev nD) : (dat0 (F := Ideal) V c).arrAt 8 cfg0.N = G V c :=
  (dat0 V c).arrAt_eq_of_cover 8 (G V c) (fun t _ => flushed_eq V c t) cover

theorem arr_apply (c : Dev nD) (p : Fin 50000) (j : Fin 96) :
    (dat0 (F := Ideal) V c).arrAt 8 cfg0.N (ix2 p j)
      = Cert.NodeSpec.proj (fun k => V c main_arg0 (ix2 p k)) (V c main_v12 (ix2 p 0)) (fun k a => V c main_v2 (ix2 k a))
          (fun k a => V c main_v5 (ix2 k a)) (fun a => V c main_v6 (ix2 0 a)) (fun a b => V c main_v8 (ix2 a b))
          (fun b => V c main_v9 (ix2 0 b)) (fun b j => V c main_v11 (ix2 b j)) j :=
  congrFun (final V c) (ix2 p j)

end Cert.KernelIdeal.RegionMlp

end
-- ==== Proof.PayloadFin.lean ====
/-
  The second kernel's arithmetic on one block of 5000 nodes, read at an entry: row `p`, column `j` of the block it
  stores is `NodeSpec.fin` of the aggregated block's row `p` and of the bias and weight blocks as loaded.

  The block is a product of a 5000 × 96 matrix with a 96 × 256 matrix, accumulated into zero, plus a bias row. The
  left factor is the aggregated block plus the convolution's bias row, rectified; narrowing it to the shorter float
  format changes nothing on the extended reals. So the entry at `(p, j)` is the sum over the 96 contracted positions
  `k` of `max (r k + gb k) 0 * wf k j`, plus `bf j`: the product's entry is read through the bijection between the
  one-axis contraction index and `Fin 96`, the left operand's index being `(p, k)` and the right operand's `(k, j)`.
-/
import proofs.«124773_j87729001988299_1_alg».proof.Proof.Gen.KernelIdeal.Skeleton
import proofs.«124773_j87729001988299_1_alg».proof.Proof.NodeSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Payload

open Cert.KernelIdeal Cert.KernelIdeal.Gen Idealize.ShloMosaic Idealize.ShloMosaic.ValueIdx

/-! ## The product's operand indices, axis by axis -/

/-- The left operand's row coordinate is the output's row coordinate. -/
theorem lhs_fin_0 (i : S5000x256.Idx) (q : dot_S5000x96_S96x256_S5000x256_1_0_0_1_n_n.contr.Idx) :
    (dot_S5000x96_S96x256_S5000x256_1_0_0_1_n_n.lhsIdx i q 0).val = (i 0).val := by
  unfold DotDims.lhsIdx
  rw [dif_neg (show ¬(0 : Fin S5000x96.rank) ∈ dot_S5000x96_S96x256_S5000x256_1_0_0_1_n_n.lhsBatch by decide), dif_pos (show (0 : Fin S5000x96.rank) ∈ dot_S5000x96_S96x256_S5000x256_1_0_0_1_n_n.lhsNonContracting by decide)]
  rfl
/-- The left operand's column coordinate is the contraction coordinate. -/
theorem lhs_fin_1 (i : S5000x256.Idx) (q : dot_S5000x96_S96x256_S5000x256_1_0_0_1_n_n.contr.Idx) :
    (dot_S5000x96_S96x256_S5000x256_1_0_0_1_n_n.lhsIdx i q 1).val = (q ⟨0, by decide⟩).val :=
  dot_S5000x96_S96x256_S5000x256_1_0_0_1_n_n.lhsIdx_val_of_single rfl i q
/-- The right operand's row coordinate is the contraction coordinate. -/
theorem rhs_fin_0 (i : S5000x256.Idx) (q : dot_S5000x96_S96x256_S5000x256_1_0_0_1_n_n.contr.Idx) :
    (dot_S5000x96_S96x256_S5000x256_1_0_0_1_n_n.rhsIdx i q 0).val = (q ⟨0, by decide⟩).val :=
  dot_S5000x96_S96x256_S5000x256_1_0_0_1_n_n.rhsIdx_val_of_single rfl i q
/-- The right operand's column coordinate is the output's column coordinate. -/
theorem rhs_fin_1 (i : S5000x256.Idx) (q : dot_S5000x96_S96x256_S5000x256_1_0_0_1_n_n.contr.Idx) :
    (dot_S5000x96_S96x256_S5000x256_1_0_0_1_n_n.rhsIdx i q 1).val = (i 1).val := by
  unfold DotDims.rhsIdx
  rw [dif_neg (show ¬(1 : Fin S96x256.rank) ∈ dot_S5000x96_S96x256_S5000x256_1_0_0_1_n_n.rhsBatch by decide), dif_pos (show (1 : Fin S96x256.rank) ∈ dot_S5000x96_S96x256_S5000x256_1_0_0_1_n_n.rhsNonContracting by decide)]
  rfl

/-- The product accumulated into zero, read at `(p, q)`: the sum over the 96 contracted positions of the left operand's
    entry `(p, k)` times the right operand's entry `(k, q)`. -/
theorem matmul_fin_apply (lhs : FVec Ideal S5000x96 .bf16) (rhs : FVec Ideal S96x256 .bf16) (p : Fin 5000) (q : Fin 256) :
    matmul dot_S5000x96_S96x256_S5000x256_1_0_0_1_n_n none lhs rhs (constant (F := Ideal) S5000x256 .f32 0x00000000#32) (ix2 p q)
      = ∑ k : Fin 96, lhs (ix2 p k) * rhs (ix2 k q) := by
  simp only [matmul]
  rw [Ideal.matmul_constant_zero_apply, ← Equiv.sum_comp (ValueIdx.contrEquiv1 dot_S5000x96_S96x256_S5000x256_1_0_0_1_n_n 96 rfl rfl).symm]
  refine Finset.sum_congr rfl fun k _ => ?_
  have hk := ValueIdx.contrEquiv1_symm_val dot_S5000x96_S96x256_S5000x256_1_0_0_1_n_n 96 rfl rfl k
  have el : dot_S5000x96_S96x256_S5000x256_1_0_0_1_n_n.lhsIdx (ix2 p q) ((ValueIdx.contrEquiv1 dot_S5000x96_S96x256_S5000x256_1_0_0_1_n_n 96 rfl rfl).symm k) = ix2 p k := funext fun a => Fin.ext (by
    match a with
    | ⟨0, _⟩ => exact lhs_fin_0 _ _
    | ⟨1, _⟩ => exact (lhs_fin_1 _ _).trans hk)
  have er : dot_S5000x96_S96x256_S5000x256_1_0_0_1_n_n.rhsIdx (ix2 p q) ((ValueIdx.contrEquiv1 dot_S5000x96_S96x256_S5000x256_1_0_0_1_n_n 96 rfl rfl).symm k) = ix2 k q := funext fun a => Fin.ext (by
    match a with
    | ⟨0, _⟩ => exact (rhs_fin_0 _ _).trans hk
    | ⟨1, _⟩ => exact rhs_fin_1 _ _)
  rw [el, er]

theorem fin_apply (x0 : Vec Ideal S5000x96 .f32) (x1 : Vec Ideal S1x96 .f32) (x2 : Vec Ideal S96x256 .bf16)
    (x3 : Vec Ideal S1x256 .f32) (p : Fin 5000) (j : Fin 256) :
    k1_pay1 (F := Ideal) x0 x1 x2 x3 (ix2 p j)
      = Cert.NodeSpec.fin (fun k => x0 (ix2 p k)) (fun k => x1 (ix2 0 k)) (fun k j => x2 (ix2 k j)) (fun j => x3 (ix2 0 j)) j := by
  unfold k1_pay1
  rw [shapeCast_self x0, shapeCast_self x1, shapeCast_self x2, shapeCast_self x3]
  refine (addf_apply _ _ _).trans ?_
  unfold Cert.NodeSpec.fin
  refine congrArg₂ (· + ·) ?_ ?_
  · refine (matmul_fin_apply _ _ p j).trans (Finset.sum_congr rfl fun k _ => ?_)
    refine congrArg (· * x2 (ix2 k j)) ?_
    refine (truncf_apply (ψ := .bf16) _ bitsLt_bf16_f32 (ix2 p k)).trans ?_
    refine (maximumf_apply _ _ _).trans ?_
    refine congrArg₂ max ?_ ?_
    · refine (addf_apply _ _ _).trans ?_
      exact congrArg (x0 (ix2 p k) + ·) (broadcastTo_1b_ab_apply x1 _ p k)
    · exact Ideal.ofBits_zero_f32
  · exact broadcastTo_1b_ab_apply x3 _ p j

end Cert.KernelIdeal.Payload

end
-- ==== Proof.RegionFin.lean ====
/-
  The second region's output array after its ten grid points, from ANY contents `V` the region is entered at: grid point
  `t` writes back rows 5000 t … 5000 t + 4999, the ten blocks tile the 50000 rows, and entry (p, j) is `NodeSpec.fin` of
  row `p` of the aggregated array and of the (whole, resident) bias and weight arrays.
-/
import proofs.«124773_j87729001988299_1_alg».proof.Proof.Gen.KernelIdeal.Frame
import proofs.«124773_j87729001988299_1_alg».proof.Proof.PayloadFin

set_option maxRecDepth 16384

noncomputable section

namespace Cert.KernelIdeal.RegionFin

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A rectangle at the origin of a rank-two array has both offsets zero. -/
theorem hz : (![0, 0] : Fin 2 → Nat) = fun _ => 0 := funext fun a => by fin_cases a <;> rfl

/-- The block index maps over the ten grid points: the aggregated array's and the output's blocks move with the point along
    the rows and sit at column block zero; the bias rows and the weight stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- There are ten grid points. -/
theorem point_lt (t : Fin cfg1.N) : t.val < 10 := lt_of_lt_of_eq t.isLt (N_1 : cfg1.N = 10)

/-- Row `p` of the finished output, from the arrays as the region finds them. -/
def row (c : Dev nD) (p : Fin 50000) (j : Fin 256) : EReal :=
  Cert.NodeSpec.fin (fun k => V c main_v56 (ix2 p k)) (fun k => V c main_v57 (ix2 0 k)) (fun k j => V c main_v59 (ix2 k j))
          (fun j => V c main_v60 (ix2 0 j)) j

/-- The whole output array as one function of the entry contents: entry (p, j) is entry j of row p. -/
def G (c : Dev nD) : S50000x256.Idx → EReal := fun i => row V c ⟨(i 0).val, (i 0).isLt⟩ ⟨(i 1).val, (i 1).isLt⟩

/-- One block: if the four loaded blocks are, entry by entry, rows of the aggregated array and the whole bias and weight
    arrays, and `g` is those rows finished, then the block the body computes is `g`. -/
theorem block_eq (x0 : Vec Ideal S5000x96 .f32) (x1 : Vec Ideal S1x96 .f32) (x2 : Vec Ideal S96x256 .bf16)
    (x3 : Vec Ideal S1x256 .f32) (g : S5000x256.Idx → EReal)
    (r : Fin 5000 → Fin 96 → EReal) (gb : Fin 96 → EReal) (wf : Fin 96 → Fin 256 → EReal) (bf : Fin 256 → EReal)
    (h0 : ∀ q k, x0 (ix2 q k) = r q k) (h1 : ∀ k, x1 (ix2 0 k) = gb k) (h2 : ∀ k j, x2 (ix2 k j) = wf k j)
    (h3 : ∀ j, x3 (ix2 0 j) = bf j)
    (hg : ∀ q j, g (ix2 q j) = Cert.NodeSpec.fin (r q) gb wf bf j) :
    k1_pay1 (F := Ideal) x0 x1 x2 x3 = g := by
  funext i
  obtain ⟨q, j, rfl⟩ : ∃ (q : Fin 5000) (j : Fin 256), i = ix2 q j := ⟨i 0, i 1, eq_ix2 i⟩
  refine (Payload.fin_apply x0 x1 x2 x3 q j).trans ?_
  rw [hg q j]
  have e0 : (fun k => x0 (ix2 q k)) = r q := funext fun k => h0 q k
  have e1 : (fun k => x1 (ix2 0 k)) = gb := funext fun k => h1 k
  have e2 : (fun k j => x2 (ix2 k j)) = wf := funext fun k => funext fun j => h2 k j
  have e3 : (fun j => x3 (ix2 0 j)) = bf := funext fun j => h3 j
  rw [e0, e1, e2, e3]

/-- The aggregated block at point `t` is rows 5000 t … 5000 t + 4999 of the aggregated array. -/
theorem agg_blk (c : Dev nD) (t : Fin cfg1.N) (q : Fin 5000) (k : Fin 96) (r : Fin 50000)
    (hr : r.val = 5000 * t.val + q.val) :
    (iblk1 V c 0 t : Vec Ideal S5000x96 .f32) (ix2 q k) = V c main_v56 (ix2 r k) := by
  obtain ⟨e0, e1, -⟩ := idx_facts t
  unfold iblk1
  rw [View.read_apply]
  show V c main_v56 _ = V c main_v56 _
  refine congrArg (V c main_v56) ?_
  funext a
  apply Fin.ext
  match a with
  | ⟨0, _⟩ => show win1_0.index t (0 : Fin 2) * 5000 + 1 * q.val = r.val; omega
  | ⟨1, _⟩ => show win1_0.index t (1 : Fin 2) * 96 + 1 * k.val = k.val; omega

/-- The convolution's bias row is resident: every point's block is the whole array. -/
theorem gb_blk (c : Dev nD) (t : Fin cfg1.N) (y : S1x96.Idx) :
    (iblk1 V c 1 t : Vec Ideal S1x96 .f32) y = V c main_v57 y := by
  obtain ⟨-, -, e0, e1, -⟩ := idx_facts t
  unfold iblk1
  rw [View.read_apply]
  show V c main_v57 _ = V c main_v57 _
  refine congrArg (V c main_v57) ?_
  funext a
  apply Fin.ext
  match a with
  | ⟨0, _⟩ => show win1_1.index t (0 : Fin 2) * 1 + 1 * (y 0).val = (y 0).val; omega
  | ⟨1, _⟩ => show win1_1.index t (1 : Fin 2) * 96 + 1 * (y 1).val = (y 1).val; omega

/-- The output projection's weight is resident: every point's block is the whole array. -/
theorem wf_blk (c : Dev nD) (t : Fin cfg1.N) (y : S96x256.Idx) :
    (iblk1 V c 2 t : Vec Ideal S96x256 .bf16) y = V c main_v59 y := by
  obtain ⟨-, -, -, -, e0, e1, -⟩ := idx_facts t
  unfold iblk1
  rw [View.read_apply]
  show V c main_v59 _ = V c main_v59 _
  refine congrArg (V c main_v59) ?_
  funext a
  apply Fin.ext
  match a with
  | ⟨0, _⟩ => show win1_2.index t (0 : Fin 2) * 96 + 1 * (y 0).val = (y 0).val; omega
  | ⟨1, _⟩ => show win1_2.index t (1 : Fin 2) * 256 + 1 * (y 1).val = (y 1).val; omega

/-- The output bias row is resident: every point's block is the whole array. -/
theorem bf_blk (c : Dev nD) (t : Fin cfg1.N) (y : S1x256.Idx) :
    (iblk1 V c 3 t : Vec Ideal S1x256 .f32) y = V c main_v60 y := by
  obtain ⟨-, -, -, -, -, -, e0, e1, -⟩ := idx_facts t
  unfold iblk1
  rw [View.read_apply]
  show V c main_v60 _ = V c main_v60 _
  refine congrArg (V c main_v60) ?_
  funext a
  apply Fin.ext
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- Block `t` of the whole-array function, read at (q, j), is entry j of row 5000 t + q. -/
theorem G_blk (c : Dev nD) (t : Fin cfg1.N) (q : Fin 5000) (j : Fin 256) (r : Fin 50000)
    (hr : r.val = 5000 * t.val + q.val) :
    ((cfg1.win 4).blk t).view.read (Elt Ideal) (G V c) (ix2 q j) = row V c r j := by
  obtain ⟨-, -, -, -, -, -, -, -, e0, e1⟩ := idx_facts t
  rw [View.read_apply]
  show row V c ⟨_, _⟩ ⟨_, _⟩ = row V c r j
  refine congrArg₂ (row V c) (Fin.ext ?_) (Fin.ext ?_)
  · show win1_4.index t (0 : Fin 2) * 5000 + 1 * q.val = r.val; omega
  · show win1_4.index t (1 : Fin 2) * 256 + 1 * j.val = j.val; omega

/-- What grid point `t` writes back is block `t` of the whole-array function. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x96) hz, View.ld_unit_zero (S := S1x96) hz, View.ld_unit_zero (S := S96x256) hz,
    View.ld_unit_zero (S := S1x256) hz]
  have ht := point_lt t
  exact block_eq (iblk1 V c 0 t) (iblk1 V c 1 t) (iblk1 V c 2 t) (iblk1 V c 3 t) _
    (fun q k => V c main_v56 (ix2 (⟨5000 * t.val + q.val, by have := q.isLt; omega⟩ : Fin 50000) k))
    (fun k => V c main_v57 (ix2 0 k)) (fun k j => V c main_v59 (ix2 k j)) (fun j => V c main_v60 (ix2 0 j))
    (fun q k => agg_blk V c t q k _ rfl)
    (fun k => gb_blk V c t (ix2 0 k)) (fun k j => wf_blk V c t (ix2 k j)) (fun j => bf_blk V c t (ix2 0 j))
    (fun q j => G_blk V c t q j _ rfl)

/-- An index of the output array is in point `t`'s block iff each coordinate is in the block's range on its axis. -/
theorem mem_blk (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v61).slice (win1_4.rect t)).set ↔ _
  rw [View.set_slice_whole, Rect.mem_set_unit]
  exact Iff.rfl

/-- The ten blocks tile the rows: row r is in the block of point r / 5000. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- The output array after the ten points is the whole-array function. -/
theorem final (c : Dev nD) : (dat1 (F := Ideal) V c).arrAt 4 cfg1.N = G V c :=
  (dat1 V c).arrAt_eq_of_cover 4 (G V c) (fun t _ => flushed_eq V c t) cover

theorem arr_apply (c : Dev nD) (p : Fin 50000) (j : Fin 256) :
    (dat1 (F := Ideal) V c).arrAt 4 cfg1.N (ix2 p j)
      = Cert.NodeSpec.fin (fun k => V c main_v56 (ix2 p k)) (fun k => V c main_v57 (ix2 0 k)) (fun k j => V c main_v59 (ix2 k j))
          (fun j => V c main_v60 (ix2 0 j)) j :=
  congrFun (final V c) (ix2 p j)

end Cert.KernelIdeal.RegionFin

end
-- ==== Proof.HostPre.lean ====
/-
  What the first kernel finds in its operand arrays: the host operations before it only re-lay the arguments — the first
  layer's weight cut into its latent and class columns and transposed, the other weights transposed, the biases and the
  labels given a unit axis — and a change of float format is the identity on the extended reals.
-/
import proofs.«124773_j87729001988299_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem V1_arg0 : V1 m ρ c main_arg0 = m ((c : Thread nD τ).loc main_arg0) := by
  dsimp only [V1, W1, hostOps0]
  after_results

theorem V1_v12 (p : Fin 50000) : V1 m ρ c main_v12 (ix2 p 0) = m ((c : Thread nD τ).loc main_arg1) (ix1 p) := by
  have e : V1 m ρ c main_v12 = shapeCast S50000x1 (m ((c : Thread nD τ).loc main_arg1)) shapeCasts_S50000_S50000x1 := by
    dsimp only [V1, W1, hostOps0]
    after_results
    rfl
  refine (congrFun e _).trans ?_
  exact shapeCast_a_a1_apply _ shapeCasts_S50000_S50000x1 p 0

theorem V1_v2 (k a : Fin 128) : V1 m ρ c main_v2 (ix2 k a) = m ((c : Thread nD τ).loc main_arg3) (ix2 a (Fin.castAdd 10 k)) := by
  have e : V1 m ρ c main_v2 = truncf (F := Ideal) .bf16 (transpose S128x128 [1, 0] (extractStridedSlice S128x128 ![0, 0] (m ((c : Thread nD τ).loc main_arg3)) slices_S128x138_S128x128_0_0) transposes_S128x128_S128x128_1_0) bitsLt_bf16_f32 := by
    dsimp only [V1, W1, hostOps0]
    after_results
  refine (congrFun e _).trans ?_
  refine (truncf_apply _ bitsLt_bf16_f32 _).trans ?_
  refine (transpose_ix2_apply _ transposes_S128x128_S128x128_1_0 k a).trans ?_
  exact slice2_axis1_apply 0 _ slices_S128x138_S128x128_0_0 a k (Fin.castAdd 10 k) (Nat.zero_add _).symm

theorem V1_v5 (k : Fin 10) (a : Fin 128) : V1 m ρ c main_v5 (ix2 k a) = m ((c : Thread nD τ).loc main_arg3) (ix2 a (Fin.natAdd 128 k)) := by
  have e : V1 m ρ c main_v5 = truncf (F := Ideal) .bf16 (transpose S10x128 [1, 0] (extractStridedSlice S128x10 ![0, 128] (m ((c : Thread nD τ).loc main_arg3)) slices_S128x138_S128x10_0_128) transposes_S128x10_S10x128_1_0) bitsLt_bf16_f32 := by
    dsimp only [V1, W1, hostOps0]
    after_results
  refine (congrFun e _).trans ?_
  refine (truncf_apply _ bitsLt_bf16_f32 _).trans ?_
  refine (transpose_ix2_apply _ transposes_S128x10_S10x128_1_0 k a).trans ?_
  exact slice2_axis1_apply 128 _ slices_S128x138_S128x10_0_128 a k (Fin.natAdd 128 k) rfl

theorem V1_v6 (a : Fin 128) : V1 m ρ c main_v6 (ix2 0 a) = m ((c : Thread nD τ).loc main_arg4) (ix1 a) := by
  have e : V1 m ρ c main_v6 = shapeCast S1x128 (m ((c : Thread nD τ).loc main_arg4)) shapeCasts_S128_S1x128 := by
    dsimp only [V1, W1, hostOps0]
    after_results
    rfl
  refine (congrFun e _).trans ?_
  exact shapeCast_a_1a_apply _ shapeCasts_S128_S1x128 0 a

theorem V1_v8 (a : Fin 128) (b : Fin 96) : V1 m ρ c main_v8 (ix2 a b) = m ((c : Thread nD τ).loc main_arg5) (ix2 b a) := by
  have e : V1 m ρ c main_v8 = truncf (F := Ideal) .bf16 (transpose S128x96 [1, 0] (m ((c : Thread nD τ).loc main_arg5)) transposes_S96x128_S128x96_1_0) bitsLt_bf16_f32 := by
    dsimp only [V1, W1, hostOps0]
    after_results
  refine (congrFun e _).trans ?_
  exact transpose_ix2_apply _ transposes_S96x128_S128x96_1_0 a b

theorem V1_v9 (b : Fin 96) : V1 m ρ c main_v9 (ix2 0 b) = m ((c : Thread nD τ).loc main_arg6) (ix1 b) := by
  have e : V1 m ρ c main_v9 = shapeCast S1x96 (m ((c : Thread nD τ).loc main_arg6)) shapeCasts_S96_S1x96 := by
    dsimp only [V1, W1, hostOps0]
    after_results
    rfl
  refine (congrFun e _).trans ?_
  exact shapeCast_a_1a_apply _ shapeCasts_S96_S1x96 0 b

theorem V1_v11 (b j : Fin 96) : V1 m ρ c main_v11 (ix2 b j) = m ((c : Thread nD τ).loc main_arg7) (ix2 j b) := by
  have e : V1 m ρ c main_v11 = truncf (F := Ideal) .bf16 (transpose S96x96 [1, 0] (m ((c : Thread nD τ).loc main_arg7)) transposes_S96x96_S96x96_1_0) bitsLt_bf16_f32 := by
    dsimp only [V1, W1, hostOps0]
    after_results
  refine (congrFun e _).trans ?_
  exact transpose_ix2_apply _ transposes_S96x96_S96x96_1_0 b j

end Cert.KernelIdeal.Host

end
-- ==== Proof.HostAgg.lean ====
/-
  The host operations between the two kernels, as one function (kernel program's vocabulary).
-/
import proofs.«124773_j87729001988299_1_alg».proof.Proof.Gen.KernelIdeal

set_option maxRecDepth 16384

noncomputable section

namespace Cert.KernelIdeal.Host

open Cert.KernelIdeal Cert.KernelIdeal.Gen Idealize.ShloMosaic Idealize.ShloMosaic.TcCoe Idealize.SL.Sem

/-- The graph convolution's aggregation as the host runs it between the two kernels — degrees by a scatter-add of ones
    over the destination nodes (self-loops appended), their inverse square roots where positive, the per-edge weight
    from two gathers, the source rows gathered and scaled, the scaled rows scatter-added onto the destination nodes — as
    ONE function of the node rows `X` and the edge list `e`. Never opened: both programs apply it. -/
def agg {F : FTy → Type} [FloatOps F] (X : (⟨S50000x96, .f32⟩ : BufTy).Contents (Elt F)) (e : (⟨S2x800000, .i32⟩ : BufTy).Contents (Elt F)) :
    (⟨S50000x96, .f32⟩ : BufTy).Contents (Elt F) :=
  Host.scatterAdd scatter_S50000x96_S850000x1_S850000x96_1_0_0_1 (broadcastInDim S50000x96 ![] bcast_S_S50000x96 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (mulf (Host.gather gather_S50000x96_S850000x1_S850000x96_1_0_n_n_0_1_196 X (broadcastInDim S850000x1 ![0] bcast_S850000_S850000x1_0 (select (cmpi .slt (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)))) (broadcastInDim S850000x96 ![0, 1] bcast_S850000x1_S850000x96_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0))))))))

end Cert.KernelIdeal.Host

end
-- ==== Proof.HostMid.lean ====
/-
  What the second kernel finds in its operand arrays: the aggregated rows are the aggregation `Host.agg` of the first
  kernel's output array and the edge list; the bias and weight operands are the arguments re-laid.
-/
import proofs.«124773_j87729001988299_1_alg».proof.Proof.Gen.KernelIdeal.Frame
import proofs.«124773_j87729001988299_1_alg».proof.Proof.HostAgg
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-- The three operation lists between the kernels leave, in the aggregated-rows buffer, the aggregation of what the
    first kernel's output buffer and the edge-list buffer held before them: for any contents, at any float family. -/
theorem agg_chain {F : FTy → Type} [FloatOps F] (Y : Valuation τ sig (Elt F)) :
    StableHlo.after hostOps1_2 (StableHlo.after hostOps1_1 (StableHlo.after hostOps1 Y)) (Proc.devRef .tc main_v56)
      = agg (F := F) (Y (Proc.devRef .tc main_v13)) (Y (Proc.devRef .tc main_arg2)) := by
  after_results_simp
  rfl

/-- The same lists leave the convolution's bias with a unit axis in front. -/
theorem chain_v57 {F : FTy → Type} [FloatOps F] (Y : Valuation τ sig (Elt F)) :
    StableHlo.after hostOps1_2 (StableHlo.after hostOps1_1 (StableHlo.after hostOps1 Y)) (Proc.devRef .tc main_v57)
      = shapeCast S1x96 (Y (Proc.devRef .tc main_arg8)) shapeCasts_S96_S1x96 := by
  after_results_simp
  rfl

/-- The same lists leave the output weight transposed and re-formatted. -/
theorem chain_v59 {F : FTy → Type} [FloatOps F] (Y : Valuation τ sig (Elt F)) :
    StableHlo.after hostOps1_2 (StableHlo.after hostOps1_1 (StableHlo.after hostOps1 Y)) (Proc.devRef .tc main_v59)
      = truncf (F := F) .bf16 (transpose S96x256 [1, 0] (Y (Proc.devRef .tc main_arg9)) transposes_S256x96_S96x256_1_0) bitsLt_bf16_f32 := by
  after_results_simp

/-- The same lists leave the output bias with a unit axis in front. -/
theorem chain_v60 {F : FTy → Type} [FloatOps F] (Y : Valuation τ sig (Elt F)) :
    StableHlo.after hostOps1_2 (StableHlo.after hostOps1_1 (StableHlo.after hostOps1 Y)) (Proc.devRef .tc main_v60)
      = shapeCast S1x256 (Y (Proc.devRef .tc main_arg10)) shapeCasts_S256_S1x256 := by
  after_results_simp
  rfl

/-- The edge list is as launched when the first kernel returns. -/
theorem W2_arg2 : W2 m ρ c (Proc.devRef .tc main_arg2) = m ((c : Thread nD τ).loc main_arg2) := by
  refine (W2_of_ne m ρ c main_arg2 (by decide)).trans ?_
  dsimp only [W1, hostOps0]
  after_results

/-- The convolution's bias is as launched when the first kernel returns. -/
theorem W2_arg8 : W2 m ρ c (Proc.devRef .tc main_arg8) = m ((c : Thread nD τ).loc main_arg8) := by
  refine (W2_of_ne m ρ c main_arg8 (by decide)).trans ?_
  dsimp only [W1, hostOps0]
  after_results

/-- The output weight is as launched when the first kernel returns. -/
theorem W2_arg9 : W2 m ρ c (Proc.devRef .tc main_arg9) = m ((c : Thread nD τ).loc main_arg9) := by
  refine (W2_of_ne m ρ c main_arg9 (by decide)).trans ?_
  dsimp only [W1, hostOps0]
  after_results

/-- The output bias is as launched when the first kernel returns. -/
theorem W2_arg10 : W2 m ρ c (Proc.devRef .tc main_arg10) = m ((c : Thread nD τ).loc main_arg10) := by
  refine (W2_of_ne m ρ c main_arg10 (by decide)).trans ?_
  dsimp only [W1, hostOps0]
  after_results

theorem V5_v56 : V5 m ρ c main_v56 = agg (F := Ideal) (W2 m ρ c (Proc.devRef .tc main_v13)) (m ((c : Thread nD τ).loc main_arg2)) :=
  (agg_chain (F := Ideal) (W2 m ρ c)).trans
    (congrArg (agg (F := Ideal) (W2 m ρ c (Proc.devRef .tc main_v13))) (W2_arg2 m ρ c))

theorem V5_v57 (k : Fin 96) : V5 m ρ c main_v57 (ix2 0 k) = m ((c : Thread nD τ).loc main_arg8) (ix1 k) := by
  refine (congrFun (chain_v57 (F := Ideal) (W2 m ρ c)) _).trans ?_
  rw [W2_arg8]
  exact shapeCast_a_1a_apply _ shapeCasts_S96_S1x96 0 k

theorem V5_v59 (k : Fin 96) (j : Fin 256) : V5 m ρ c main_v59 (ix2 k j) = m ((c : Thread nD τ).loc main_arg9) (ix2 j k) := by
  refine (congrFun (chain_v59 (F := Ideal) (W2 m ρ c)) _).trans ?_
  rw [W2_arg9]
  exact transpose_ix2_apply _ transposes_S256x96_S96x256_1_0 k j

theorem V5_v60 (j : Fin 256) : V5 m ρ c main_v60 (ix2 0 j) = m ((c : Thread nD τ).loc main_arg10) (ix1 j) := by
  refine (congrFun (chain_v60 (F := Ideal) (W2 m ρ c)) _).trans ?_
  rw [W2_arg10]
  exact shapeCast_a_1a_apply _ shapeCasts_S256_S1x256 0 j

end Cert.KernelIdeal.Host

end
-- ==== Proof.RefAgg.lean ====
/-
  The host operations of the reference's graph convolution between its projection and its bias, as one function
  (reference program's vocabulary).
-/
import proofs.«124773_j87729001988299_1_alg».proof.Proof.Gen.ReferenceIdeal

set_option maxRecDepth 16384

noncomputable section

namespace Cert.ReferenceIdeal.Side

open Cert.ReferenceIdeal Cert.ReferenceIdeal.Gen Idealize.ShloMosaic Idealize.ShloMosaic.TcCoe Idealize.SL.Sem

/-- The graph convolution's aggregation as the host runs it between the two kernels — degrees by a scatter-add of ones
    over the destination nodes (self-loops appended), their inverse square roots where positive, the per-edge weight
    from two gathers, the source rows gathered and scaled, the scaled rows scatter-added onto the destination nodes — as
    ONE function of the node rows `X` and the edge list `e`. Never opened: both programs apply it. -/
def agg {F : FTy → Type} [FloatOps F] (X : (⟨S50000x96, .f32⟩ : BufTy).Contents (Elt F)) (e : (⟨S2x800000, .i32⟩ : BufTy).Contents (Elt F)) :
    (⟨S50000x96, .f32⟩ : BufTy).Contents (Elt F) :=
  Host.scatterAdd scatter_S50000x96_S850000x1_S850000x96_1_0_0_1 (broadcastInDim S50000x96 ![] bcast_S_S50000x96 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (mulf (Host.gather gather_S50000x96_S850000x1_S850000x96_1_0_n_n_0_1_196 X (broadcastInDim S850000x1 ![0] bcast_S850000_S850000x1_0 (select (cmpi .slt (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)))) (broadcastInDim S850000x96 ![0, 1] bcast_S850000x1_S850000x96_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0))))))))

end Cert.ReferenceIdeal.Side

end
-- ==== Proof.RefSide.lean ====
/-
  The reference, stage by stage, against the node specification: its projected rows (before the aggregation) are
  `NodeSpec.proj` of each node's row, the concatenated row's product split into its latent and class parts; its
  aggregation is `Side.agg` of those rows; its result is `NodeSpec.fin` of each aggregated row.
-/
import proofs.«124773_j87729001988299_1_alg».proof.Proof.RefRead
import proofs.«124773_j87729001988299_1_alg».proof.Proof.RefAgg
import proofs.«124773_j87729001988299_1_alg».proof.Proof.NodeSpec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.ReferenceIdeal.Side

open Cert.ReferenceIdeal Cert.ReferenceIdeal.Gen Cert.ReferenceIdeal.PRead Idealize.ShloMosaic Idealize.ShloMosaic.TcCoe Idealize.ShloMosaic.ValueIdx Idealize.SL.Sem

/-- The class entries of a node's one-hot row are the indicator of its label. -/
theorem v0_apply (x1 : (⟨S50000, .i32⟩ : BufTy).Contents (Elt Ideal)) (p : Fin 50000) (k : Fin 10) :
    val_main_v0 (F := Ideal) x1 (ix2 p k) = Cert.NodeSpec.ind (x1 (ix1 p)) k := by
  rw [val_main_v0_apply, val_main_call0_v4_apply, val_main_call0_v2_apply, val_main_call0_v0_apply,
    val_main_call0_v3_apply, val_main_call0_v1_apply]
  have e : idx_main_call0_v0 (idx_main_call0_v2 (ix2 p k)) = ix1 p := funext fun d => by
    match d with | ⟨0, _⟩ => rfl
  rw [e]
  rfl

/-- The first 128 entries of a node's concatenated row are its latent row. -/
theorem v1_left (x0 : (⟨S50000x128, .f32⟩ : BufTy).Contents (Elt Ideal)) (x1 : (⟨S50000, .i32⟩ : BufTy).Contents (Elt Ideal))
    (p : Fin 50000) (k : Fin 128) :
    val_main_v1 (F := Ideal) x0 x1 (ix2 p (Fin.castAdd 10 k)) = x0 (ix2 p k) := by
  unfold val_main_v1
  exact concatenate_pair_apply_left 1 x0 (val_main_v0 (F := Ideal) x1) concatenates_S50000x128_S50000x10_S50000x138_d1
    (ix2 p (Fin.castAdd 10 k)) rfl (ix2 p k) (fun b => match b with
      | ⟨0, _⟩ => rfl
      | ⟨1, _⟩ => rfl)

/-- The last 10 entries of a node's concatenated row are its one-hot class row. -/
theorem v1_right (x0 : (⟨S50000x128, .f32⟩ : BufTy).Contents (Elt Ideal)) (x1 : (⟨S50000, .i32⟩ : BufTy).Contents (Elt Ideal))
    (p : Fin 50000) (k : Fin 10) :
    val_main_v1 (F := Ideal) x0 x1 (ix2 p (Fin.natAdd 128 k)) = val_main_v0 (F := Ideal) x1 (ix2 p k) := by
  unfold val_main_v1
  exact concatenate_pair_apply_right 1 x0 (val_main_v0 (F := Ideal) x1) concatenates_S50000x128_S50000x10_S50000x138_d1
    (ix2 p (Fin.natAdd 128 k)) rfl rfl (ix2 p k) (fun b hb => match b, hb with
      | ⟨0, _⟩, _ => rfl
      | ⟨1, _⟩, hb => absurd rfl hb)
    (by show k.val + 128 = 128 + k.val; exact Nat.add_comm _ _)

/-- A node's hidden row: the product of its concatenated row with the uncut matrix is the latent part plus the class
    part, then the bias and the rectifier. -/
theorem v7_hidden (x0 : (⟨S50000x128, .f32⟩ : BufTy).Contents (Elt Ideal)) (x1 : (⟨S50000, .i32⟩ : BufTy).Contents (Elt Ideal))
    (x3 : (⟨S128x138, .f32⟩ : BufTy).Contents (Elt Ideal)) (x4 : (⟨S128, .f32⟩ : BufTy).Contents (Elt Ideal))
    (p : Fin 50000) (a : Fin 128) :
    val_main_v7 (F := Ideal) x0 x1 x3 x4 (ix2 p a)
      = Cert.NodeSpec.hidden (fun k => x0 (ix2 p k)) (x1 (ix1 p)) (fun k a => x3 (ix2 a (Fin.castAdd 10 k)))
          (fun k a => x3 (ix2 a (Fin.natAdd 128 k))) (fun a => x4 (ix1 a)) a := by
  rw [val_main_v7_apply, val_main_v6_apply, val_main_v3_apply, val_main_v5_apply, val_main_v4_apply,
    val_main_call1_v0_apply, val_main_call1_cst_apply]
  have e4 : idx_main_v4 (idx_main_v5 (ix2 p a)) = ix1 a := funext fun d => by
    match d with | ⟨0, _⟩ => rfl
  rw [e4, Ideal.maximumf_def, Ideal.addf_def, Ideal.ofBits_def, Ideal.ofBits_zero_f32]
  unfold Cert.NodeSpec.hidden
  rw [Cert.NodeSpec.sum_split]
  refine congrArg (fun s => max (s + x4 (ix1 a)) 0) ?_
  refine congrArg₂ (· + ·) (Finset.sum_congr rfl fun k _ => ?_) (Finset.sum_congr rfl fun k _ => ?_)
  · have el : lidx_main_v3 (ix2 p a) (Fin.castAdd 10 k) = ix2 p (Fin.castAdd 10 k) := funext fun d => by
      match d with | ⟨0, _⟩ => rfl | ⟨1, _⟩ => rfl
    have er : idx_main_v2 (ridx_main_v3 (ix2 p a) (Fin.castAdd 10 k)) = ix2 a (Fin.castAdd 10 k) := funext fun d => by
      match d with | ⟨0, _⟩ => rfl | ⟨1, _⟩ => rfl
    rw [el, v1_left, val_main_v2_apply, er]
  · have el : lidx_main_v3 (ix2 p a) (Fin.natAdd 128 k) = ix2 p (Fin.natAdd 128 k) := funext fun d => by
      match d with | ⟨0, _⟩ => rfl | ⟨1, _⟩ => rfl
    have er : idx_main_v2 (ridx_main_v3 (ix2 p a) (Fin.natAdd 128 k)) = ix2 a (Fin.natAdd 128 k) := funext fun d => by
      match d with | ⟨0, _⟩ => rfl | ⟨1, _⟩ => rfl
    rw [el, v1_right, v0_apply, val_main_v2_apply, er]

/-- A node's feature row: the hidden row times the second weight, plus its bias. -/
theorem v12_feat (x0 : (⟨S50000x128, .f32⟩ : BufTy).Contents (Elt Ideal)) (x1 : (⟨S50000, .i32⟩ : BufTy).Contents (Elt Ideal))
    (x3 : (⟨S128x138, .f32⟩ : BufTy).Contents (Elt Ideal)) (x4 : (⟨S128, .f32⟩ : BufTy).Contents (Elt Ideal))
    (x5 : (⟨S96x128, .f32⟩ : BufTy).Contents (Elt Ideal)) (x6 : (⟨S96, .f32⟩ : BufTy).Contents (Elt Ideal))
    (p : Fin 50000) (b : Fin 96) :
    val_main_v12 (F := Ideal) x0 x1 x3 x4 x5 x6 (ix2 p b)
      = Cert.NodeSpec.feat (fun k => x0 (ix2 p k)) (x1 (ix1 p)) (fun k a => x3 (ix2 a (Fin.castAdd 10 k)))
          (fun k a => x3 (ix2 a (Fin.natAdd 128 k))) (fun a => x4 (ix1 a)) (fun a b => x5 (ix2 b a)) (fun b => x6 (ix1 b)) b := by
  rw [val_main_v12_apply, val_main_v9_apply, val_main_v11_apply, val_main_v10_apply]
  have e6 : idx_main_v10 (idx_main_v11 (ix2 p b)) = ix1 b := funext fun d => by
    match d with | ⟨0, _⟩ => rfl
  rw [e6, Ideal.addf_def]
  unfold Cert.NodeSpec.feat
  refine congrArg (· + x6 (ix1 b)) (Finset.sum_congr rfl fun a _ => ?_)
  have el : lidx_main_v9 (ix2 p b) a = ix2 p a := funext fun d => by
    match d with | ⟨0, _⟩ => rfl | ⟨1, _⟩ => rfl
  have er : idx_main_v8 (ridx_main_v9 (ix2 p b) a) = ix2 b a := funext fun d => by
    match d with | ⟨0, _⟩ => rfl | ⟨1, _⟩ => rfl
  rw [el, v7_hidden, val_main_v8_apply, er]

theorem v14_apply (x0 : (⟨S50000x128, .f32⟩ : BufTy).Contents (Elt Ideal)) (x1 : (⟨S50000, .i32⟩ : BufTy).Contents (Elt Ideal)) (x3 : (⟨S128x138, .f32⟩ : BufTy).Contents (Elt Ideal)) (x4 : (⟨S128, .f32⟩ : BufTy).Contents (Elt Ideal)) (x5 : (⟨S96x128, .f32⟩ : BufTy).Contents (Elt Ideal)) (x6 : (⟨S96, .f32⟩ : BufTy).Contents (Elt Ideal)) (x7 : (⟨S96x96, .f32⟩ : BufTy).Contents (Elt Ideal)) (p : Fin 50000) (j : Fin 96) :
    val_main_v14 (F := Ideal) x0 x1 x3 x4 x5 x6 x7 (ix2 p j)
      = Cert.NodeSpec.proj (fun k => x0 (ix2 p k)) (x1 (ix1 p)) (fun k a => x3 (ix2 a (Fin.castAdd 10 k)))
          (fun k a => x3 (ix2 a (Fin.natAdd 128 k))) (fun a => x4 (ix1 a)) (fun a b => x5 (ix2 b a)) (fun b => x6 (ix1 b))
          (fun b j => x7 (ix2 j b)) j := by
  rw [val_main_v14_apply]
  unfold Cert.NodeSpec.proj
  refine Finset.sum_congr rfl fun b _ => ?_
  have el : lidx_main_v14 (ix2 p j) b = ix2 p b := funext fun d => by
    match d with | ⟨0, _⟩ => rfl | ⟨1, _⟩ => rfl
  have er : idx_main_v13 (ridx_main_v14 (ix2 p j) b) = ix2 j b := funext fun d => by
    match d with | ⟨0, _⟩ => rfl | ⟨1, _⟩ => rfl
  rw [el, v12_feat, val_main_v13_apply, er]

theorem v57_eq (x0 : (⟨S50000x128, .f32⟩ : BufTy).Contents (Elt Ideal)) (x1 : (⟨S50000, .i32⟩ : BufTy).Contents (Elt Ideal)) (x2 : (⟨S2x800000, .i32⟩ : BufTy).Contents (Elt Ideal)) (x3 : (⟨S128x138, .f32⟩ : BufTy).Contents (Elt Ideal)) (x4 : (⟨S128, .f32⟩ : BufTy).Contents (Elt Ideal)) (x5 : (⟨S96x128, .f32⟩ : BufTy).Contents (Elt Ideal)) (x6 : (⟨S96, .f32⟩ : BufTy).Contents (Elt Ideal)) (x7 : (⟨S96x96, .f32⟩ : BufTy).Contents (Elt Ideal)) :
    val_main_v57 (F := Ideal) x0 x1 x2 x3 x4 x5 x6 x7 = agg (F := Ideal) (val_main_v14 (F := Ideal) x0 x1 x3 x4 x5 x6 x7) x2 := by
  unfold val_main_v57 val_main_v56 val_main_v55 val_main_cst_8 val_main_v54 val_main_v53 val_main_v52 val_main_v51
    val_main_v50 val_main_v49 val_main_v48 val_main_v47 val_main_c_7 val_main_v46 val_main_v45 val_main_c_6
    val_main_v44 val_main_v43 val_main_v42 val_main_v41 val_main_v40 val_main_v39 val_main_c_5 val_main_v38
    val_main_v37 val_main_c_4 val_main_v36 val_main_v35 val_main_v34 val_main_v33 val_main_v32 val_main_c_3
    val_main_v31 val_main_v30 val_main_c val_main_v29 val_main_call2_v1 val_main_call2_v0 val_main_cst_2
    val_main_v28 val_main_v27 val_main_v26 val_main_cst_1 val_main_v25 val_main_v24 val_main_v23 val_main_cst_0
    val_main_v22 val_main_cst val_main_v21 val_main_v20 val_main_v19 val_main_v18 val_main_v17 val_main_v16
    val_main_v15 agg
  rfl

theorem v66_apply (x0 : (⟨S50000x128, .f32⟩ : BufTy).Contents (Elt Ideal)) (x1 : (⟨S50000, .i32⟩ : BufTy).Contents (Elt Ideal)) (x2 : (⟨S2x800000, .i32⟩ : BufTy).Contents (Elt Ideal)) (x3 : (⟨S128x138, .f32⟩ : BufTy).Contents (Elt Ideal)) (x4 : (⟨S128, .f32⟩ : BufTy).Contents (Elt Ideal)) (x5 : (⟨S96x128, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (x9 : (⟨S256x96, .f32⟩ : BufTy).Contents (Elt Ideal)) (x10 : (⟨S256, .f32⟩ : BufTy).Contents (Elt Ideal)) (p : Fin 50000) (j : Fin 256) :
    val_main_v66 (F := Ideal) x0 x1 x2 x3 x4 x5 x6 x7 x8 x9 x10 (ix2 p j)
      = Cert.NodeSpec.fin (fun k => val_main_v57 (F := Ideal) x0 x1 x2 x3 x4 x5 x6 x7 (ix2 p k)) (fun k => x8 (ix1 k))
          (fun k j => x9 (ix2 j k)) (fun j => x10 (ix1 j)) j := by
  rw [val_main_v66_apply, val_main_v63_apply, val_main_v65_apply, val_main_v64_apply]
  unfold Cert.NodeSpec.fin
  have e10 : idx_main_v64 (idx_main_v65 (ix2 p j)) = ix1 j := funext fun a => by
    match a with | ⟨0, _⟩ => rfl
  rw [e10, Ideal.addf_def]
  refine congrArg (· + x10 (ix1 j)) (Finset.sum_congr rfl fun k _ => ?_)
  have el : lidx_main_v63 (ix2 p j) k = ix2 p k := funext fun a => by
    match a with | ⟨0, _⟩ => rfl | ⟨1, _⟩ => rfl
  have er : idx_main_v62 (ridx_main_v63 (ix2 p j) k) = ix2 j k := funext fun a => by
    match a with | ⟨0, _⟩ => rfl | ⟨1, _⟩ => rfl
  have e8 : idx_main_v58 (idx_main_v59 (ix2 p k)) = ix1 k := funext fun a => by
    match a with | ⟨0, _⟩ => rfl
  rw [el, val_main_v62_apply, er, val_main_v61_apply, val_main_v60_apply, val_main_v59_apply, val_main_v58_apply, e8,
    val_main_call3_v0_apply, val_main_call3_cst_apply, Ideal.maximumf_def, Ideal.addf_def, Ideal.ofBits_def,
    Ideal.ofBits_zero_f32]

end Cert.ReferenceIdeal.Side

end
-- ==== Proof.AggSame.lean ====
/-
  The two programs run the same aggregation: the kernel program's host operations between its regions and the
  reference's, written over each program's own vocabulary of shapes and dimension records, are one function.
-/
import proofs.«124773_j87729001988299_1_alg».proof.Proof.HostAgg
import proofs.«124773_j87729001988299_1_alg».proof.Proof.RefAgg

set_option maxRecDepth 16384

noncomputable section

namespace Cert.AggSame

open Idealize.ShloMosaic Idealize.ShloMosaic.TcCoe Idealize.SL.Sem

theorem agg_same {F : FTy → Type} [FloatOps F] (X : (⟨Cert.KernelIdeal.S50000x96, .f32⟩ : BufTy).Contents (Elt F))
    (e : (⟨Cert.KernelIdeal.S2x800000, .i32⟩ : BufTy).Contents (Elt F)) :
    Cert.KernelIdeal.Host.agg X e = Cert.ReferenceIdeal.Side.agg X e := by
  -- the two texts differ only in which program's shapes, dimension records and stated facts they name: equal data,
  -- and the facts are propositions
  unfold Cert.KernelIdeal.Host.agg Cert.ReferenceIdeal.Side.agg
  rfl

end Cert.AggSame

end
-- ==== Proof.lean ====
/-
  The kernel program against its reference, on the extended reals.

  Both programs compute, for a graph of 50000 nodes and 800000 edges, a two-layer perceptron on each node's latent row
  and one-hot class label, a graph convolution (projection, degree-normalised aggregation over the edges with
  self-loops, bias, rectifier) and an output projection. The kernel program does the per-node work in two pipelined
  kernels of ten blocks of 5000 nodes each and leaves the aggregation to host operations between them; the
  reference is host operations throughout.

  Per node the two agree with the specification `NodeSpec`: the first kernel's output row is `NodeSpec.proj` of the
  node's row (its block products read at an entry, the ten blocks tiling the array), and so is the reference's
  projected row, whose product with the uncut first-layer weight over the concatenated row of 128 + 10 entries
  splits into the kernel's two products (associativity and commutativity of addition only: no finiteness is used).
  The aggregation is the same host function in both programs, applied to equal arrays. The second kernel's output row
  and the reference's result row are `NodeSpec.fin` of the aggregated row.

  The frames of the two kernel programs are the generated ones; the reference's frame is its run with the result
  dropped; the idealization rewrote nothing, so `preserves` is trivial.
-/
import proofs.«124773_j87729001988299_1_alg».proof.Defs
import proofs.«124773_j87729001988299_1_alg».proof.Proof.Gen.Kernel
import proofs.«124773_j87729001988299_1_alg».proof.Proof.Gen.Kernel.Skeleton
import proofs.«124773_j87729001988299_1_alg».proof.Proof.Gen.Kernel.Launch
import proofs.«124773_j87729001988299_1_alg».proof.Proof.Gen.Kernel.Points
import proofs.«124773_j87729001988299_1_alg».proof.Proof.Gen.Kernel.Frame
import proofs.«124773_j87729001988299_1_alg».proof.Proof.Gen.KernelIdeal
import proofs.«124773_j87729001988299_1_alg».proof.Proof.Gen.KernelIdeal.Skeleton
import proofs.«124773_j87729001988299_1_alg».proof.Proof.Gen.KernelIdeal.Launch
import proofs.«124773_j87729001988299_1_alg».proof.Proof.Gen.KernelIdeal.Points
import proofs.«124773_j87729001988299_1_alg».proof.Proof.Gen.KernelIdeal.Frame
import proofs.«124773_j87729001988299_1_alg».proof.Proof.Gen.ReferenceIdeal
import proofs.«124773_j87729001988299_1_alg».proof.Proof.Gen.Pre_finite_inputs
import proofs.«124773_j87729001988299_1_alg».proof.Proof.RunNamed
import proofs.«124773_j87729001988299_1_alg».proof.Proof.RegionMlp
import proofs.«124773_j87729001988299_1_alg».proof.Proof.RegionFin
import proofs.«124773_j87729001988299_1_alg».proof.Proof.HostPre
import proofs.«124773_j87729001988299_1_alg».proof.Proof.HostMid
import proofs.«124773_j87729001988299_1_alg».proof.Proof.RefSide
import proofs.«124773_j87729001988299_1_alg».proof.Proof.AggSame
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section Value

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The first kernel's output array, as the aggregation finds it, is the reference's projected rows of the same
    arguments: entry (p, j) of either is `NodeSpec.proj` of node `p`. -/
theorem proj_rows :
    Cert.KernelIdeal.Gen.W2 m ρ c (Proc.devRef .tc Cert.KernelIdeal.main_v13)
      = Cert.ReferenceIdeal.PRead.val_main_v14 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  refine (Cert.KernelIdeal.Gen.W2_arr m ρ c 8).trans ?_
  funext i
  obtain ⟨p, j, rfl⟩ : ∃ (p : Fin 50000) (j : Fin 96), i = ix2 p j := ⟨i 0, i 1, eq_ix2 i⟩
  rw [Cert.KernelIdeal.RegionMlp.arr_apply, Cert.ReferenceIdeal.Side.v14_apply]
  -- the region's operand arrays, entry by entry, are the arguments re-laid
  have e0 : (fun k => Cert.KernelIdeal.Gen.V1 m ρ c Cert.KernelIdeal.main_arg0 (ix2 p k)) = fun k => (m ((c : Thread Cert.KernelIdeal.nD Cert.KernelIdeal.τ).loc Cert.KernelIdeal.main_arg0)) (ix2 p k) :=
    funext fun k => congrFun (Cert.KernelIdeal.Host.V1_arg0 m ρ c) _
  have e1 : Cert.KernelIdeal.Gen.V1 m ρ c Cert.KernelIdeal.main_v12 (ix2 p 0) = (m ((c : Thread Cert.KernelIdeal.nD Cert.KernelIdeal.τ).loc Cert.KernelIdeal.main_arg1)) (ix1 p) := Cert.KernelIdeal.Host.V1_v12 m ρ c p
  have e2 : (fun k a => Cert.KernelIdeal.Gen.V1 m ρ c Cert.KernelIdeal.main_v2 (ix2 k a)) = fun k a => (m ((c : Thread Cert.KernelIdeal.nD Cert.KernelIdeal.τ).loc Cert.KernelIdeal.main_arg3)) (ix2 a (Fin.castAdd 10 k)) :=
    funext fun k => funext fun a => Cert.KernelIdeal.Host.V1_v2 m ρ c k a
  have e3 : (fun k a => Cert.KernelIdeal.Gen.V1 m ρ c Cert.KernelIdeal.main_v5 (ix2 k a)) = fun k a => (m ((c : Thread Cert.KernelIdeal.nD Cert.KernelIdeal.τ).loc Cert.KernelIdeal.main_arg3)) (ix2 a (Fin.natAdd 128 k)) :=
    funext fun k => funext fun a => Cert.KernelIdeal.Host.V1_v5 m ρ c k a
  have e4 : (fun a => Cert.KernelIdeal.Gen.V1 m ρ c Cert.KernelIdeal.main_v6 (ix2 0 a)) = fun a => (m ((c : Thread Cert.KernelIdeal.nD Cert.KernelIdeal.τ).loc Cert.KernelIdeal.main_arg4)) (ix1 a) :=
    funext fun a => Cert.KernelIdeal.Host.V1_v6 m ρ c a
  have e5 : (fun a b => Cert.KernelIdeal.Gen.V1 m ρ c Cert.KernelIdeal.main_v8 (ix2 a b)) = fun a b => (m ((c : Thread Cert.KernelIdeal.nD Cert.KernelIdeal.τ).loc Cert.KernelIdeal.main_arg5)) (ix2 b a) :=
    funext fun a => funext fun b => Cert.KernelIdeal.Host.V1_v8 m ρ c a b
  have e6 : (fun b => Cert.KernelIdeal.Gen.V1 m ρ c Cert.KernelIdeal.main_v9 (ix2 0 b)) = fun b => (m ((c : Thread Cert.KernelIdeal.nD Cert.KernelIdeal.τ).loc Cert.KernelIdeal.main_arg6)) (ix1 b) :=
    funext fun b => Cert.KernelIdeal.Host.V1_v9 m ρ c b
  have e7 : (fun b j => Cert.KernelIdeal.Gen.V1 m ρ c Cert.KernelIdeal.main_v11 (ix2 b j)) = fun b j => (m ((c : Thread Cert.KernelIdeal.nD Cert.KernelIdeal.τ).loc Cert.KernelIdeal.main_arg7)) (ix2 j b) :=
    funext fun b => funext fun j => Cert.KernelIdeal.Host.V1_v11 m ρ c b j
  rw [e0, e1, e2, e3, e4, e5, e6, e7]

/-- The kernel program's result array is the reference's result term of the same arguments: entry (p, j) of either is
    `NodeSpec.fin` of node `p`'s aggregated row, and the aggregated arrays are one function of equal arrays. -/
theorem kernel_result :
    Cert.KernelIdeal.Gen.W6 m ρ c (Proc.devRef .tc Cert.KernelIdeal.main_v61)
      = Cert.ReferenceIdeal.PRead.val_main_v66 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  refine (Cert.KernelIdeal.Gen.W6_arr m ρ c 4).trans ?_
  funext i
  obtain ⟨p, j, rfl⟩ : ∃ (p : Fin 50000) (j : Fin 256), i = ix2 p j := ⟨i 0, i 1, eq_ix2 i⟩
  rw [Cert.KernelIdeal.RegionFin.arr_apply, Cert.ReferenceIdeal.Side.v66_apply]
  -- the region's bias and weight operands, entry by entry, are the arguments re-laid
  have e8 : (fun k => Cert.KernelIdeal.Gen.V5 m ρ c Cert.KernelIdeal.main_v57 (ix2 0 k)) = fun k => (m ((c : Thread Cert.KernelIdeal.nD Cert.KernelIdeal.τ).loc Cert.KernelIdeal.main_arg8)) (ix1 k) :=
    funext fun k => Cert.KernelIdeal.Host.V5_v57 m ρ c k
  have e9 : (fun k j => Cert.KernelIdeal.Gen.V5 m ρ c Cert.KernelIdeal.main_v59 (ix2 k j)) = fun k j => (m ((c : Thread Cert.KernelIdeal.nD Cert.KernelIdeal.τ).loc Cert.KernelIdeal.main_arg9)) (ix2 j k) :=
    funext fun k => funext fun j => Cert.KernelIdeal.Host.V5_v59 m ρ c k j
  have e10 : (fun j => Cert.KernelIdeal.Gen.V5 m ρ c Cert.KernelIdeal.main_v60 (ix2 0 j)) = fun j => (m ((c : Thread Cert.KernelIdeal.nD Cert.KernelIdeal.τ).loc Cert.KernelIdeal.main_arg10)) (ix1 j) :=
    funext fun j => Cert.KernelIdeal.Host.V5_v60 m ρ c j
  -- its aggregated operand is the aggregation of the first kernel's output array: the reference's aggregated rows
  rw [e8, e9, e10, Cert.KernelIdeal.Host.V5_v56, proj_rows, Cert.AggSame.agg_same, ← Cert.ReferenceIdeal.Side.v57_eq]

end Value

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.PValue.run (F := Ideal) m ρ)

/-- From memories agreeing on the arguments both programs run, and end with equal result arrays: the kernel program's
    run names its result array, the reference's run its result term, and the two are equal by `kernel_result`. -/
theorem algebraic : Cert.algebraic_KernelIdeal_ReferenceIdeal := by
  intro m ρ m' ρ' _ hagree
  refine ⟨fun c => Cert.KernelIdeal.Gen.W6 m ρ c (Proc.devRef .tc Cert.KernelIdeal.main_v61), Cert.KernelIdeal.Named.run_named (F := Ideal) m ρ, ?_⟩
  refine (θ_run Cert.ReferenceIdeal.defs _ _).mono (fun _ h c => ⟨(h c).1.trans ?_, (h c).2⟩) (Cert.ReferenceIdeal.PValue.run (F := Ideal) m' ρ')
  obtain ⟨h0, h1, h2, h3, h4, h5, h6, h7, h8, h9, h10⟩ := hagree c
  rw [Cert.ReferenceIdeal.PRead.val_main_v66_eq, h0, h1, h2, h3, h4, h5, h6, h7, h8, h9, h10]
  exact (kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
